-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S100000x128 : Shape := ⟨2, ![100000, 128]⟩
abbrev S100000x100 : Shape := ⟨2, ![100000, 100]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000x100 : S_.BroadcastsInDim S100000x100 (![] : Fin 0 → Fin S100000x100.rank)
  reducesTo_S100000x100_S_d0_1 : S100000x100.ReducesTo [0, 1] S_

variable [Facts]

def fn {F : FTy → Type} [FloatOps F] (main_arg0 : FVec F S2048x128 .f32) (main_arg1 : FVec F S100000x128 .f32) (main_arg2 : FVec F S100000x100 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x100 .f32 := Host.absf main_arg2
  let main_cst_2 : FVec F S_ .f32 := constant S_ .f32 0x7F800000#32
  let main_v10 : FVec F S100000x100 .f32 := broadcastInDim S100000x100 ![] bcast_S_S100000x100 main_cst_2
  let main_v11 : IVec S100000x100 1 := cmpf .olt main_v9 main_v10
  let main_c_3 : IVec S_ 1 := constantI S_ 1 1#1
  let main_v12 : IVec S_ 1 := (fun x v => Host.reduce IntOp.andi x v reducesTo_S100000x100_S_d0_1 h_S_) main_v11 main_c_3
  let main_v13 : IVec S_ 1 := andi main_v8 main_v12
  main_v13
-- ==== Kernel.lean ====
abbrev S2048x128 : Shape := ⟨2, ![2048, 128]⟩
abbrev S100000x128 : Shape := ⟨2, ![100000, 128]⟩
abbrev S100000x100 : Shape := ⟨2, ![100000, 100]⟩
abbrev S_ : Shape := ⟨0, ![]⟩
abbrev S100000x1 : Shape := ⟨2, ![100000, 1]⟩
abbrev S100000x101 : Shape := ⟨2, ![100000, 101]⟩
abbrev S100000 : Shape := ⟨1, ![100000]⟩
abbrev S100352x128 : Shape := ⟨2, ![100352, 128]⟩
abbrev S100352 : Shape := ⟨1, ![100352]⟩
abbrev S1x100352 : Shape := ⟨2, ![1, 100352]⟩
abbrev S1024x128 : Shape := ⟨2, ![1024, 128]⟩
abbrev S1x1024 : Shape := ⟨2, ![1, 1024]⟩
abbrev S1024x1 : Shape := ⟨2, ![1024, 1]⟩
abbrev S1024 : Shape := ⟨1, ![1024]⟩
abbrev S1024x1024 : Shape := ⟨2, ![1024, 1024]⟩
abbrev S2048x100 : Shape := ⟨2, ![2048, 100]⟩
abbrev S2048x1 : Shape := ⟨2, ![2048, 1]⟩

abbrev nBuf : Space → Nat
  | .hbm => 28
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S100000x100, .f32⟩
  | .hbm, ⟨3, _⟩ => ⟨S_, .f32⟩
  | .hbm, ⟨4, _⟩ => ⟨S100000x1, .f32⟩
  | .hbm, ⟨5, _⟩ => ⟨S100000x101, .f32⟩
  | .hbm, ⟨6, _⟩ => ⟨S_, .i32⟩
  | .hbm, ⟨7, _⟩ => ⟨S_, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S_, .f32⟩
  | .hbm, ⟨14, _⟩ => ⟨S100352x128, .f32⟩
  | .hbm, ⟨15, _⟩ => ⟨S_, .i32⟩
  | .hbm, ⟨16, _⟩ => ⟨S_, .f32⟩
  | .hbm, ⟨17, _⟩ => ⟨S100352x128, .f32⟩
  | .hbm, ⟨18, _⟩ => ⟨S_, .f32⟩
  | .hbm, ⟨19, _⟩ => ⟨S_, .f32⟩
  | .hbm, ⟨20, _⟩ => ⟨S100352, .f32⟩
  | .hbm, ⟨21, _⟩ => ⟨S100352x128, .bf16⟩
  | .hbm, ⟨22, _⟩ => ⟨S1x100352, .f32⟩
  | .hbm, ⟨23, _⟩ => ⟨S2048x128, .f32⟩
  | .hbm, ⟨24, _⟩ => ⟨S2048x100, .f32⟩
  | .hbm, ⟨25, _⟩ => ⟨S2048x1, .f32⟩
  | .hbm, ⟨26, _⟩ => ⟨S2048x100, .f32⟩
  | .hbm, ⟨27, _⟩ => ⟨S2048x100, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S1024x128, .bf16⟩
  | .local _ .vmem, ⟨13, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_c_1 : Ref sig .tc := ⟨.hbm, 12, rfl⟩
abbrev main_call1_v0 : Ref sig .tc := ⟨.hbm, 13, rfl⟩
abbrev main_v5 : Ref sig .tc := ⟨.hbm, 14, rfl⟩
abbrev main_c_2 : Ref sig .tc := ⟨.hbm, 15, rfl⟩
abbrev main_call2_v0 : Ref sig .tc := ⟨.hbm, 16, rfl⟩
abbrev main_v6 : Ref sig .tc := ⟨.hbm, 17, rfl⟩
abbrev main_cst_3 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 98], ![false, false]⟩

def k0_cond2 (i : grid0.Coords) : BitVec 1 :=
  let arg1 : BitVec 32 := BitVec.ofNat 32 (i 1).val
  let c97_i32 : BitVec 32 := 97#32
  let v46 : BitVec 1 := Scalar.cmpi .eq arg1 c97_i32
  let v47 : BitVec 32 := Scalar.extui v46
  let c0_i32_25 : BitVec 32 := 0#32
  let v48 : BitVec 1 := Scalar.cmpi .ne v47 c0_i32_25
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S100000x1 : S_.BroadcastsInDim S100000x1 (![] : Fin 0 → Fin S100000x1.rank)
  concatenates_S100000x100_S100000x1_S100000x101_d1 : Shape.Concatenates [S100000x100, S100000x1] S100000x101 1
  pads_S100000x101_S100000x128_000_0270 : S100000x101.Pads (![0, 0] : Fin 2 → Nat) ![0, 27] ![0, 0] S100000x128
  h_S_ : 0 < S_.numel
  reducesTo_S100000x128_S100000_d1 : S100000x128.ReducesTo [1] S100000
  pads_S100000x128_S100352x128_03520_000 : S100000x128.Pads (![0, 0] : Fin 2 → Nat) ![352, 0] ![0, 0] S100352x128
  pads_S100000_S100352_03520 : S100000.Pads (![0] : Fin 1 → Nat) ![352] ![0] S100352
  bitsLt_bf16_f32 : FTy.bits .bf16 < FTy.bits .f32
  shapeCasts_S100352_S1x100352 : S100352.ShapeCasts S1x100352
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  reduces_S1024x128_S1024 : S1024x128.Reduces [1] S1024
  shapeCasts_S1024_S1024x1 : S1024.ShapeCasts S1024x1
  packedbf16_S1024x128_S1024x128_0_0 : (Rect.unit (s := S1024x128) ![0, 0] S1024x128.size inb_S1024x128_S1024x128_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  broadcasts_S1024x1_S1024x128 : S1024x1.Broadcasts S1024x128
  slices_S2048x128_S2048x100_0_0 : S2048x128.Slices ![0, 0] S2048x100
  slices_S2048x128_S2048x1_0_100 : S2048x128.Slices ![0, 100] S2048x1
  bcast_S2048x1_S2048x100_0_1 : S2048x1.BroadcastsInDim S2048x100 (![0, 1] : Fin 2 → Fin S2048x100.rank)
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S100352x128.size a
  hwx0_1 : ∀ i : grid0.Coords, EltTy.bits .bf16 = 32 ∨ (Rect.block (s := S100352x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x100352.size a
  hwx0_2 : ∀ i : grid0.Coords, EltTy.bits .f32 = 32 ∨ (Rect.block (s := S1x100352) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S100352x128.size a
  hwx0_3 : ∀ i : grid0.Coords, EltTy.bits .f32 = 32 ∨ (Rect.block (s := S100352x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S2048x128.size a
  hwx0_4 : ∀ i : grid0.Coords, EltTy.bits .f32 = 32 ∨ (Rect.block (s := S2048x128) S1024x128.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x128 : Shape := ⟨2, ![2048, 128]⟩
abbrev S100000x128 : Shape := ⟨2, ![100000, 128]⟩
abbrev S100000x100 : Shape := ⟨2, ![100000, 100]⟩
abbrev S128x100000 : Shape := ⟨2, ![128, 100000]⟩
abbrev S2048x100000 : Shape := ⟨2, ![2048, 100000]⟩
abbrev S_ : Shape := ⟨0, ![]⟩
abbrev S100000 : Shape := ⟨1, ![100000]⟩
abbrev S1x100000 : Shape := ⟨2, ![1, 100000]⟩
abbrev S2048 : Shape := ⟨1, ![2048]⟩
abbrev S2048x1 : Shape := ⟨2, ![2048, 1]⟩
abbrev S2048x100 : Shape := ⟨2, ![2048, 100]⟩

abbrev nBuf : Space → Nat
  | .hbm => 43
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S100000x100, .f32⟩
  | .hbm, ⟨3, _⟩ => ⟨S128x100000, .f32⟩
  | .hbm, ⟨4, _⟩ => ⟨S2048x100000, .f32⟩
  | .hbm, ⟨5, _⟩ => ⟨S_, .f32⟩
  | .hbm, ⟨6, _⟩ => ⟨S2048x100000, .f32⟩
  | .hbm, ⟨7, _⟩ => ⟨S2048x100000, .f32⟩
  | .hbm, ⟨8, _⟩ => ⟨S100000x128, .f32⟩
  | .hbm, ⟨9, _⟩ => ⟨S_, .f32⟩
  | .hbm, ⟨10, _⟩ => ⟨S100000, .f32⟩
  | .hbm, ⟨11, _⟩ => ⟨S1x100000, .f32⟩
  | .hbm, ⟨12, _⟩ => ⟨S2048x100000, .f32⟩
  | .hbm, ⟨13, _⟩ => ⟨S2048x100000, .f32⟩
  | .hbm, ⟨14, _⟩ => ⟨S2048x128, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x100000, .f32⟩
  | .hbm, ⟨19, _⟩ => ⟨S2048x100000, .f32⟩
  | .hbm, ⟨20, _⟩ => ⟨S_, .f32⟩
  | .hbm, ⟨21, _⟩ => ⟨S2048x100000, .f32⟩
  | .hbm, ⟨22, _⟩ => ⟨S2048x100000, .f32⟩
  | .hbm, ⟨23, _⟩ => ⟨S2048x100000, .f32⟩
  | .hbm, ⟨24, _⟩ => ⟨S2048x100000, .f32⟩
  | .hbm, ⟨25, _⟩ => ⟨S_, .f32⟩
  | .hbm, ⟨26, _⟩ => ⟨S2048x100000, .f32⟩
  | .hbm, ⟨27, _⟩ => ⟨S2048x100000, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x100000, .f32⟩
  | .hbm, ⟨35, _⟩ => ⟨S2048x100000, .f32⟩
  | .hbm, ⟨36, _⟩ => ⟨S2048x100000, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x100000, .f32⟩
  | .hbm, ⟨41, _⟩ => ⟨S2048x100000, .f32⟩
  | .hbm, ⟨42, _⟩ => ⟨S2048x100, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S_S2048x100000 : S_.BroadcastsInDim S2048x100000 (![] : Fin 0 → Fin S2048x100000.rank)
  reducesTo_S100000x128_S100000_d1 : S100000x128.ReducesTo [1] S100000
  h_S_ : 0 < S_.numel
  bcast_S100000_S1x100000_1 : S100000.BroadcastsInDim S1x100000 (![1] : Fin 1 → Fin S1x100000.rank)
  bcast_S1x100000_S2048x100000_0_1 : S1x100000.BroadcastsInDim S2048x100000 (![0, 1] : Fin 2 → Fin S2048x100000.rank)
  reducesTo_S2048x128_S2048_d1 : S2048x128.ReducesTo [1] S2048
  bcast_S2048_S2048x1_0 : S2048.BroadcastsInDim S2048x1 (![0] : Fin 1 → Fin S2048x1.rank)
  bcast_S2048x1_S2048x100000_0_1 : S2048x1.BroadcastsInDim S2048x100000 (![0, 1] : Fin 2 → Fin S2048x100000.rank)
  reducesTo_S2048x100000_S2048_d1 : S2048x100000.ReducesTo [1] S2048
  bcast_S_S2048 : S_.BroadcastsInDim S2048 (![] : Fin 0 → Fin S2048.rank)
  dot_S2048x128_S128x100000_S2048x100000_1_0_0_1_n_n_wf : DotDims.WF S2048x128 S128x100000 S2048x100000 [1] [0] [0] [1] [] []
  dot_S2048x100000_S100000x100_S2048x100_1_0_0_1_n_n_wf : DotDims.WF S2048x100000 S100000x100 S2048x100 [1] [0] [0] [1] [] []

variable [Facts₀]

def dot_S2048x128_S128x100000_S2048x100000_1_0_0_1_n_n : DotDims S2048x128 S128x100000 S2048x100000 where
  lhsContracting := [1]
  rhsContracting := [0]
  lhsNonContracting := [0]
  rhsNonContracting := [1]
  lhsBatch := []
  rhsBatch := []
  wf := dot_S2048x128_S128x100000_S2048x100000_1_0_0_1_n_n_wf
def dot_S2048x100000_S100000x100_S2048x100_1_0_0_1_n_n : DotDims S2048x100000 S100000x100 S2048x100 where
  lhsContracting := [1]
  rhsContracting := [0]
  lhsNonContracting := [0]
  rhsNonContracting := [1]
  lhsBatch := []
  rhsBatch := []
  wf := dot_S2048x100000_S100000x100_S2048x100_1_0_0_1_n_n_wf

class Facts : Prop extends Facts₀ where

variable [Facts]
-- ==== Proof.Spec.lean ====
/- The two sides of the claim as functions of the three argument arrays, entry by entry, on the extended reals.

   The reference: the squared distance of query row `b` to address row `n` by the expanded quadratic form,
   its square root clamped at zero, the scores `-dist/2`, their softmax along `n` (shifted by the row maximum),
   and the weighted sum of the rows of the value table.

   The kernel: the same distances scaled by 1/2 (the factors -1/2 and 1/4 folded into the operands), over the
   address table padded to a multiple of the tile length 1024 with zero rows whose squared norm is a large
   constant; a running minimum and a rescaled running accumulator over the tiles, against the value table with a
   column of ones appended (so that column 100 of the accumulator is the softmin denominator) and padded with
   zeros; the quotient of column `c` by column 100 at the end. -/
import Idealize.ShloMosaic.PureOps.Ideal
import Mathlib.Algebra.BigOperators.Fin
import Mathlib.Order.Fin.Basic

noncomputable section

open scoped BigOperators

namespace Cert.Softmin

open Idealize.ShloMosaic

/-- The extended real a 32-bit float pattern denotes. -/
abbrev lit (b : BitVec 32) : EReal := Ideal.ofBits .f32 b

variable (X : Fin 2048 → Fin 128 → EReal) (A : Fin 100000 → Fin 128 → EReal) (Mv : Fin 100000 → Fin 100 → EReal)

/-! ## The reference -/

/-- The squared distance of query `b` to address `n`: `-2 x·a + |a|² + |x|²`. -/
def refSq (b : Fin 2048) (n : Fin 100000) : EReal :=
  lit 0xC0000000#32 * (∑ d : Fin 128, X b d * A n d) + (∑ d : Fin 128, A n d * A n d) + (∑ d : Fin 128, X b d * X b d)

/-- The score: minus the clamped distance, over the temperature 2. -/
def refScore (b : Fin 2048) (n : Fin 100000) : EReal :=
  Ideal.div (-(Ideal.sqrt (max (refSq X A b n) 0))) (lit 0x40000000#32)

/-- The largest score of row `b`. -/
def refMax (b : Fin 2048) : EReal := (Finset.univ : Finset (Fin 100000)).sup (refScore X A b)

/-- The unnormalised softmax weight. -/
def refW (b : Fin 2048) (n : Fin 100000) : EReal := Ideal.exp (refScore X A b n - refMax X A b)

/-- The reference's result at `(b, c)`: the softmax weights against column `c` of the value table. -/
def refOut (b : Fin 2048) (c : Fin 100) : EReal :=
  ∑ n : Fin 100000, Ideal.div (refW X A b n) (∑ k : Fin 100000, refW X A b k) * Mv n c

/-! ## The kernel -/

/-- The query row scaled by -1/2. -/
def kxs (b : Fin 2048) (d : Fin 128) : EReal := X b d * lit 0xBF000000#32

/-- The squared norm of the query row. -/
def knx (b : Fin 2048) : EReal := ∑ d : Fin 128, X b d * X b d

/-- The address table padded with zero rows. -/
def Ap (n : ℕ) (d : Fin 128) : EReal := if h : n < 100000 then A ⟨n, h⟩ d else 0

/-- The squared norms of the address rows, padded with a large constant. -/
def nAp (n : ℕ) : EReal := if h : n < 100000 then ∑ d : Fin 128, A ⟨n, h⟩ d * A ⟨n, h⟩ d else lit 0x5368D4A5#32

/-- The value table with a column of ones appended at column 100, padded with zeros to 128 columns and with zero rows. -/
def Mp (n : ℕ) (cc : Fin 128) : EReal :=
  if h : n < 100000 then (if h2 : cc.val < 100 then Mv ⟨n, h⟩ ⟨cc.val, h2⟩ else if cc.val = 100 then 1 else 0) else 0

/-- The scaled distance `dist/2` of query `b` to padded address `n`. -/
def kd (b : Fin 2048) (n : ℕ) : EReal :=
  Ideal.sqrt (max ((∑ d : Fin 128, kxs X b d * Ap A n d) + nAp A n * lit 0x3E800000#32 + knx X b * lit 0x3E800000#32) 0)

/-- The running minimum of the scores `d` after `j` tiles of 1024, from +infinity. -/
def runMin (d : ℕ → EReal) : ℕ → EReal
  | 0 => ⊤
  | j + 1 => min (runMin d j) ((Finset.univ : Finset (Fin 1024)).inf fun k => d (1024 * j + k.val))

/-- The running accumulator of the weights `w` after `j` tiles: the old one rescaled to the new minimum, plus the
    tile's terms. -/
def runAcc (d w : ℕ → EReal) : ℕ → EReal
  | 0 => 0
  | j + 1 => Ideal.exp (runMin d (j + 1) - runMin d j) * runAcc d w j
      + ∑ k : Fin 1024, Ideal.exp (runMin d (j + 1) - d (1024 * j + k.val)) * w (1024 * j + k.val)

/-- The kernel's result at `(b, c)`: column `c` of the accumulator over column 100 after all 98 tiles. -/
def kOut (b : Fin 2048) (c : Fin 100) : EReal :=
  Ideal.div (runAcc (kd X A b) (fun n => Mp Mv n ⟨c.val, by omega⟩) 98) (runAcc (kd X A b) (fun n => Mp Mv n ⟨100, by omega⟩) 98)

end Cert.Softmin

end
-- ==== Proof.Chain.lean ====
/- What the four carried scratch buffers hold after each grid point, as a recursion over the grid's linear position.

   The grid is 2 row blocks of 1024 queries by 98 tiles of 1024 addresses, walked tile by tile within a row block
   (position `n` is row block `n / 98`, tile `n % 98`). The scratch is the tuple (running minimum of the scaled
   distances, squared norms of the queries, queries scaled by -1/2, accumulator). At the first tile of a row block
   the body resets the minimum to +infinity and the accumulator to zero, computes the query norms and the scaled
   queries, and then does what it does at every tile: fold the tile's distances into the minimum, rescale the
   accumulator by `exp (new minimum - old minimum)` and add the tile's weights against the tile's value rows. -/
import proofs.«421776_j37220186587420_3_alg».proof.Proof.Gen.KernelIdeal.Frame
import Idealize.ShloMosaic.PureOps.Ideal
import Idealize.ShloMosaic.Lib.ValueIdx

noncomputable section

open Idealize.ShloMosaic Idealize.ShloMosaic.TcCoe Idealize.SL.Sem

namespace Cert.KernelIdeal.Online

open Cert.KernelIdeal Cert.KernelIdeal.Gen

variable {F : FTy → Type} [FloatOps F]

/-- The carried scratch: running minimum, query norms, scaled queries, accumulator. -/
abbrev Scr (F : FTy → Type) [FloatOps F] : Type :=
  Vec F S1024x1 .f32 × Vec F S1024x1 .f32 × Vec F S1024x128 .bf16 × Vec F S1024x128 .f32

/-- The zero block the second product accumulates into. -/
abbrev zacc : FVec F S1024x128 .f32 := constant S1024x128 .f32 0x00000000#32

/-- A tile's update of the scratch `s`, from the tile's address rows `a`, their squared norms `na` and value rows `mv`. -/
def next (a : Vec F S1024x128 .bf16) (na : Vec F S1x1024 .f32) (mv : Vec F S1024x128 .f32) (s : Scr F) : Scr F :=
  (k0_pay2 (k0_pay8 a s.2.2.1 na s.2.1 s.1), s.2.1, s.2.2.1,
    k0_pay1 (k0_pay9 a s.2.2.1 na s.2.1 s.1 s.1) (k0_pay10 a s.2.2.1 na s.2.1 s.1) (k0_pay11 mv) zacc s.2.2.2)

/-- The scratch after the first tile of a row block with query rows `x`: the reset, then the tile's update. -/
def first (x : Vec F S1024x128 .f32) (a : Vec F S1024x128 .bf16) (na : Vec F S1x1024 .f32) (mv : Vec F S1024x128 .f32) : Scr F :=
  next a na mv (k0_pay3, k0_pay5 x, k0_pay6 x, k0_pay4)

variable (m : (ℓ : Loc nD τ sig) → Buf (Elt F) ℓ)

/-- The scratch after grid position `n`. -/
def scr (c : Dev nD) : (n : ℕ) → n < cfg0.N → Scr F
  | 0, h => first (iblk m c 0 ⟨0, h⟩) (iblk m c 1 ⟨0, h⟩) (iblk m c 2 ⟨0, h⟩) (iblk m c 3 ⟨0, h⟩)
  | n + 1, h =>
    if (n + 1) % 98 = 0 then
      first (iblk m c 0 ⟨n + 1, h⟩) (iblk m c 1 ⟨n + 1, h⟩) (iblk m c 2 ⟨n + 1, h⟩) (iblk m c 3 ⟨n + 1, h⟩)
    else
      next (iblk m c 1 ⟨n + 1, h⟩) (iblk m c 2 ⟨n + 1, h⟩) (iblk m c 3 ⟨n + 1, h⟩) (scr c n (Nat.lt_of_succ_lt h))

/-- The query row that lane `r` of grid position `t` works on. -/
def rowIdx (t : Fin cfg0.N) (r : Fin 1024) : Fin 2048 :=
  ⟨1024 * (t.val / 98) + r.val, by have := t.isLt; have hN : cfg0.N = 196 := N_0; have := r.isLt; omega⟩

/-- The last grid position of the row block that holds query row `b`. -/
def lastPos (b : Fin 2048) : Fin cfg0.N :=
  ⟨98 * (b.val / 1024) + 97, by have hN : cfg0.N = 196 := N_0; have := b.isLt; omega⟩

/-- The lane of query row `b` within its row block. -/
def lane (b : Fin 2048) : Fin 1024 := ⟨b.val % 1024, Nat.mod_lt _ (by norm_num)⟩

theorem rowIdx_lastPos (b : Fin 2048) : rowIdx (lastPos b) (lane b) = b := by
  apply Fin.ext
  show 1024 * ((98 * (b.val / 1024) + 97) / 98) + b.val % 1024 = b.val
  have := b.isLt
  omega

theorem lastPos_mod (b : Fin 2048) : (lastPos b).val % 98 = 97 := by
  show (98 * (b.val / 1024) + 97) % 98 = 97
  omega

end Cert.KernelIdeal.Online

/-! The three argument arrays as functions of their two coordinates. -/
namespace Cert.KernelIdeal.Args

open Cert.KernelIdeal Idealize.ShloMosaic.ValueIdx

variable (m : (ℓ : Loc nD τ sig) → Buf (Elt Ideal) ℓ)

/-- The queries. -/
def Xof (c : Dev nD) : Fin 2048 → Fin 128 → EReal := fun b d =>
  (m ((c.tc : Thread nD τ).loc main_arg0) : S2048x128.Idx → EReal) (ix2 b d)

/-- The address table. -/
def Aof (c : Dev nD) : Fin 100000 → Fin 128 → EReal := fun n d =>
  (m ((c.tc : Thread nD τ).loc main_arg1) : S100000x128.Idx → EReal) (ix2 n d)

/-- The value table. -/
def Mof (c : Dev nD) : Fin 100000 → Fin 100 → EReal := fun n k =>
  (m ((c.tc : Thread nD τ).loc main_arg2) : S100000x100.Idx → EReal) (ix2 n k)

end Cert.KernelIdeal.Args

end
-- ==== Proof.Lits.lean ====
/- The float literals the two programs spell, as the extended reals their bit patterns denote.
   The kernel scales by -1/2 and 1/4 where the reference multiplies by -2 and divides by 2; the running
   minimum starts at +infinity, the reference's running maximum at -infinity; the padded squared norms
   are a large finite number. -/
import Idealize.ShloMosaic.PureOps.Ideal
import Idealize.ShloMosaic.PureOps.Ideal.Laws

noncomputable section

namespace Cert.Lits

open Idealize.ShloMosaic

/-- The pattern of `-0.5` denotes the real `-1/2`. -/
theorem neg_half : Ideal.ofBits .f32 0xBF000000#32 = ((-(1 / 2) : ℝ) : EReal) := by
  simp [Ideal.ofBits, Ideal.ieee, -EReal.coe_mul]; norm_num

/-- The pattern of `0.25` denotes the real `1/4`. -/
theorem quarter : Ideal.ofBits .f32 0x3E800000#32 = ((1 / 4 : ℝ) : EReal) := by
  simp [Ideal.ofBits, Ideal.ieee, -EReal.coe_mul]; norm_num

/-- The pattern of `-2.0` denotes the real `-2`. -/
theorem neg_two : Ideal.ofBits .f32 0xC0000000#32 = ((-2 : ℝ) : EReal) := by
  simp [Ideal.ofBits, Ideal.ieee, -EReal.coe_mul]; norm_num

/-- The pattern of `2.0` denotes the real `2`. -/
theorem two : Ideal.ofBits .f32 0x40000000#32 = ((2 : ℝ) : EReal) := by
  simp [Ideal.ofBits, Ideal.ieee, -EReal.coe_mul]; norm_num

/-- The pattern of `1.0` denotes `1`. -/
theorem one : Ideal.ofBits .f32 0x3F800000#32 = ((1 : ℝ) : EReal) := by
  simp [Ideal.ofBits, Ideal.ieee, -EReal.coe_mul]; norm_num

/-- The positive infinity pattern denotes the top element. -/
theorem pos_inf : Ideal.ofBits .f32 0x7F800000#32 = ⊤ := by
  simp [Ideal.ofBits, Ideal.ieee]

/-- The negative infinity pattern denotes the bottom element. -/
theorem neg_inf : Ideal.ofBits .f32 0xFF800000#32 = ⊥ := by
  simp [Ideal.ofBits, Ideal.ieee]

/-- The large pad value of the squared norms is a finite number (it is `15258789 * 2^16`). -/
theorem big : Ideal.ofBits .f32 0x5368D4A5#32 = ((999999995904 : ℝ) : EReal) := by
  simp [Ideal.ofBits, Ideal.ieee, -EReal.coe_mul]; norm_num

end Cert.Lits

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.LibDotLast.lean ====
/-
  The product of an M×K matrix by an N×K matrix contracted on both last axes, read at an index of the result, at the
  ideal (extended-real) values: entry (r, c) is the sum over the contracted coordinate k of x[r, k] * w[c, k] — the
  product `x · wᵀ` without the transpose being formed. Stated for the host's product and for the matrix unit's
  product accumulated into a zero array, which is the same sum because 0 + s = s.
-/
import Idealize.ShloMosaic.Lib.ValueIdx
import Idealize.ShloMosaic.Lib.KernelVsHost
import Idealize.ShloMosaic.PureOps.Ideal.Laws

noncomputable section

open scoped BigOperators

namespace Cert.Lib.DotLast

open Idealize.ShloMosaic Idealize.ShloMosaic.ValueIdx

variable {m k n : Nat} {φ₁ φ₂ : FTy}

/-- The host's product at `(a, b)`: the sum over `c` of `A[a, c] * B[b, c]`. -/
theorem dotGeneral_last_apply (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The matrix unit's product into a zero accumulator at `(a, b)`: the same sum. -/
theorem matmul_zero_last_apply (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul d prec A B (constant ⟨2, ![m, n]⟩ .f32 0x00000000#32) (ix2 a b) = ∑ c : Fin k, A (ix2 a c) * B (ix2 b c) := by
  subst hd
  rw [matmul_zero_eq_dotGeneral]
  exact dotGeneral_last_apply prec A B a b

end Cert.Lib.DotLast

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.PayIdx.lean ====
/- A tile's update of the scratch read entry by entry on the extended reals: the tile's scaled distances from the
   two products' sums, the new running minimum, the rescaled accumulator plus the tile's weighted value rows; and
   the reset values, the query norms and the scaled queries. -/
import proofs.«421776_j37220186587420_3_alg».proof.Proof.Chain
import proofs.«421776_j37220186587420_3_alg».proof.Proof.Spec
import proofs.«421776_j37220186587420_3_alg».proof.Proof.Lits
import proofs.«421776_j37220186587420_3_alg».proof.Proof.LibColumn
import proofs.«421776_j37220186587420_3_alg».proof.Proof.LibDotLast
import proofs.«421776_j37220186587420_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

open Idealize.ShloMosaic Idealize.ShloMosaic.ValueIdx

namespace Cert.KernelIdeal.Online

open Cert.KernelIdeal Cert.KernelIdeal.Gen Cert.Softmin

/-- The scaled distance of lane `r`'s query to the tile's address row `k`, from the scratch's scaled query and norm. -/
def tileDist (a : Vec Ideal S1024x128 .bf16) (na : Vec Ideal S1x1024 .f32) (s : Scr Ideal) (r k : Fin 1024) : EReal :=
  Ideal.sqrt (max ((∑ d : Fin 128, s.2.2.1 (ix2 r d) * a (ix2 k d)) + na (ix2 (0 : Fin 1) k) * lit 0x3E800000#32
    + s.2.1 (ix2 r (0 : Fin 1)) * lit 0x3E800000#32) 0)

/-- The first product contracts both operands on their last axes. -/
theorem dot_first_eq : dot_S1024x128_S1024x128_S1024x1024_1_1_0_0_n_n = DotDims.transposedRhs 1024 128 1024 := rfl

/-- The second product is the plain one. -/
theorem dot_second_eq : dot_S1024x1024_S1024x128_S1024x128_1_0_0_1_n_n = DotDims.plain 1024 1024 128 := rfl

/-- The tile's scaled distances at an entry. -/
theorem pay7_apply (a xs : FVec Ideal S1024x128 .bf16) (na : FVec Ideal S1x1024 .f32) (nx : FVec Ideal S1024x1 .f32)
    (r k : Fin 1024) :
    k0_pay7 (F := Ideal) a xs na nx (ix2 r k)
      = Ideal.sqrt (max ((∑ d : Fin 128, xs (ix2 r d) * a (ix2 k d)) + na (ix2 (0 : Fin 1) k) * lit 0x3E800000#32
          + nx (ix2 r (0 : Fin 1)) * lit 0x3E800000#32) 0) := by
  unfold k0_pay7
  refine congrArg Ideal.sqrt ?_
  refine congr (congrArg max ?_) Ideal.ofBits_zero_f32
  refine congr (congrArg HAdd.hAdd (congr (congrArg HAdd.hAdd ?_) ?_)) ?_
  · rw [shapeCast_self]
    exact Cert.Lib.DotLast.matmul_zero_last_apply dot_S1024x128_S1024x128_S1024x1024_1_1_0_0_n_n dot_first_eq none xs a r k
  · refine (broadcastTo_1b_ab_apply _ broadcasts_S1x1024_S1024x1024 r k).trans ?_
    show shapeCast S1x1024 na shapeCasts_S1x1024_S1x1024 (ix2 (0 : Fin 1) k) * lit 0x3E800000#32 = _
    rw [shapeCast_self]
  · exact (Cert.Column.broadcastTo_a1_ab_apply _ broadcasts_S1024x1_S1024x1024 r k).trans rfl

/-- A lane minimum over one axis, on the extended reals: the fold of `min` from the start value over that axis's
    coordinates. -/
theorem multiReduction_minimumf_single {s t : Shape} {ax : Fin s.rank} {φ : FTy} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The fold of `min` from the top element is the infimum. -/
theorem fold_min_top_eq_inf {ι : Type} (s : Finset ι) (f : ι → EReal) : s.fold min ⊤ f = s.inf f := rfl

/-- The row minimum of a 1024 by 1024 array, from +infinity, at lane `r`. -/
theorem rowMin_apply (v : FVec Ideal S1024x1024 .f32) (hφ : FKind.Formats .f32)
    (hacc : (0x7F800000#32 : BitVec 32) = FKind.minimumf.neutral .f32 hφ) (r : Fin 1024) :
    multiReduction .minimumf [1] S1024 v 0x7F800000#32 reduces_S1024x1024_S1024 hφ hacc (ix1 r)
      = (Finset.univ : Finset (Fin 1024)).inf fun k => v (ix2 r k) := by
  refine (multiReduction_minimumf_single v _ reduces_S1024x1024_S1024 hφ hacc (ix1 r)).trans ?_
  rw [← fold_min_top_eq_inf]
  refine congr (congr (congrArg (Finset.fold min) Cert.Lits.pos_inf) (funext fun k => congrArg v ?_)) rfl
  funext ax
  match ax with
  | ⟨0, _⟩ => rfl
  | ⟨1, _⟩ => rfl

/-- The new running minimum at a lane: the old one against the least of the tile's distances. -/
theorem pay8_apply (a xs : FVec Ideal S1024x128 .bf16) (na : FVec Ideal S1x1024 .f32) (nx m : FVec Ideal S1024x1 .f32)
    (r : Fin 1024) :
    k0_pay8 (F := Ideal) a xs na nx m (ix2 r (0 : Fin 1))
      = min (m (ix2 r (0 : Fin 1)))
          ((Finset.univ : Finset (Fin 1024)).inf fun k => k0_pay7 (F := Ideal) a xs na nx (ix2 r k)) := by
  unfold k0_pay8
  refine congrArg (min (m (ix2 r (0 : Fin 1)))) ?_
  refine (Cert.Column.shapeCast_a_a1_apply _ shapeCasts_S1024_S1024x1 r (0 : Fin 1)).trans ?_
  exact rowMin_apply _ _ _ r

/-- The rescaling factor at a lane: the exponential of the new minimum less the old one. -/
theorem pay9_apply (a xs : FVec Ideal S1024x128 .bf16) (na : FVec Ideal S1x1024 .f32) (nx m m' : FVec Ideal S1024x1 .f32)
    (j : S1024x1.Idx) :
    k0_pay9 (F := Ideal) a xs na nx m m' j = Ideal.exp (k0_pay8 (F := Ideal) a xs na nx m j - m' j) := rfl

/-- The tile's weights at an entry: the exponential of the new minimum less the entry's distance. -/
theorem pay10_apply (a xs : FVec Ideal S1024x128 .bf16) (na : FVec Ideal S1x1024 .f32) (nx m : FVec Ideal S1024x1 .f32)
    (r k : Fin 1024) :
    k0_pay10 (F := Ideal) a xs na nx m (ix2 r k)
      = Ideal.exp (k0_pay8 (F := Ideal) a xs na nx m (ix2 r (0 : Fin 1)) - k0_pay7 (F := Ideal) a xs na nx (ix2 r k)) := by
  unfold k0_pay10
  refine congrArg Ideal.exp ?_
  refine congrArg (· - k0_pay7 (F := Ideal) a xs na nx (ix2 r k)) ?_
  exact Cert.Column.broadcastTo_a1_ab_apply _ broadcasts_S1024x1_S1024x1024 r k

/-- The value rows pass through the narrowing unchanged. -/
theorem pay11_apply (mv : FVec Ideal S1024x128 .f32) (j : S1024x128.Idx) : k0_pay11 (F := Ideal) mv j = mv j := by
  unfold k0_pay11
  rw [shapeCast_self]
  rfl

/-- The stored minimum is the computed one. -/
theorem pay2_eq (v : FVec Ideal S1024x1 .f32) : k0_pay2 (F := Ideal) v = v := by
  unfold k0_pay2
  exact shapeCast_self _ _

/-- The accumulator's update at an entry: the factor times the old entry plus the weights' row against the value column. -/
theorem pay1_apply (f : FVec Ideal S1024x1 .f32) (w : FVec Ideal S1024x1024 .bf16) (vb : FVec Ideal S1024x128 .bf16)
    (acc : FVec Ideal S1024x128 .f32) (r : Fin 1024) (cc : Fin 128) :
    k0_pay1 (F := Ideal) f w vb zacc acc (ix2 r cc)
      = f (ix2 r (0 : Fin 1)) * acc (ix2 r cc) + ∑ k : Fin 1024, w (ix2 r k) * vb (ix2 k cc) := by
  unfold k0_pay1
  rw [shapeCast_self]
  refine congr (congrArg HAdd.hAdd (congrArg (· * acc (ix2 r cc)) ?_)) ?_
  · exact Cert.Column.broadcastTo_a1_ab_apply _ broadcasts_S1024x1_S1024x128 r cc
  · exact Cert.LibPlainDot.matmul_zero_plain_apply dot_S1024x1024_S1024x128_S1024x128_1_0_0_1_n_n dot_second_eq none w vb (ix2 r cc)

/-- The new running minimum: the old one against the least of the tile's distances. -/
theorem next_min (a : Vec Ideal S1024x128 .bf16) (na : Vec Ideal S1x1024 .f32) (mv : Vec Ideal S1024x128 .f32) (s : Scr Ideal)
    (r : Fin 1024) :
    (next a na mv s).1 (ix2 r (0 : Fin 1))
      = min (s.1 (ix2 r (0 : Fin 1))) ((Finset.univ : Finset (Fin 1024)).inf fun k => tileDist a na s r k) := by
  show k0_pay2 (F := Ideal) (k0_pay8 (F := Ideal) a s.2.2.1 na s.2.1 s.1) (ix2 r (0 : Fin 1)) = _
  rw [pay2_eq]
  refine (pay8_apply a s.2.2.1 na s.2.1 s.1 r).trans ?_
  exact congrArg (min (s.1 (ix2 r (0 : Fin 1))))
    (congrArg (Finset.univ : Finset (Fin 1024)).inf (funext fun k => pay7_apply a s.2.2.1 na s.2.1 r k))

/-- The query norms are carried unchanged. -/
theorem next_nx (a : Vec Ideal S1024x128 .bf16) (na : Vec Ideal S1x1024 .f32) (mv : Vec Ideal S1024x128 .f32) (s : Scr Ideal) :
    (next a na mv s).2.1 = s.2.1 := rfl

/-- The scaled queries are carried unchanged. -/
theorem next_xs (a : Vec Ideal S1024x128 .bf16) (na : Vec Ideal S1x1024 .f32) (mv : Vec Ideal S1024x128 .f32) (s : Scr Ideal) :
    (next a na mv s).2.2.1 = s.2.2.1 := rfl

/-- The new accumulator: the old one rescaled to the new minimum, plus the tile's weights against its value rows. -/
theorem next_acc (a : Vec Ideal S1024x128 .bf16) (na : Vec Ideal S1x1024 .f32) (mv : Vec Ideal S1024x128 .f32) (s : Scr Ideal)
    (r : Fin 1024) (cc : Fin 128) :
    (next a na mv s).2.2.2 (ix2 r cc)
      = Ideal.exp ((next a na mv s).1 (ix2 r (0 : Fin 1)) - s.1 (ix2 r (0 : Fin 1))) * s.2.2.2 (ix2 r cc)
        + ∑ k : Fin 1024, Ideal.exp ((next a na mv s).1 (ix2 r (0 : Fin 1)) - tileDist a na s r k) * mv (ix2 k cc) := by
  have hm : (next a na mv s).1 = k0_pay8 (F := Ideal) a s.2.2.1 na s.2.1 s.1 :=
    pay2_eq (k0_pay8 (F := Ideal) a s.2.2.1 na s.2.1 s.1)
  rw [hm]
  show k0_pay1 (F := Ideal) (k0_pay9 (F := Ideal) a s.2.2.1 na s.2.1 s.1 s.1) (k0_pay10 (F := Ideal) a s.2.2.1 na s.2.1 s.1)
      (k0_pay11 (F := Ideal) mv) zacc s.2.2.2 (ix2 r cc) = _
  refine (pay1_apply _ _ _ _ r cc).trans ?_
  refine congr (congrArg HAdd.hAdd ?_) (Finset.sum_congr rfl fun k _ => ?_)
  · rfl
  · rw [pay10_apply, pay11_apply, pay7_apply]
    rfl

/-- The running minimum is reset to +infinity. -/
theorem reset_min (j : S1024x1.Idx) : (k0_pay3 (F := Ideal)) j = ⊤ := by
  unfold k0_pay3
  rw [shapeCast_self]
  exact Cert.Lits.pos_inf

/-- The accumulator is reset to zero. -/
theorem reset_acc (j : S1024x128.Idx) : (k0_pay4 (F := Ideal)) j = 0 := by
  unfold k0_pay4
  rw [shapeCast_self]
  exact Ideal.ofBits_zero_f32

/-- The squared norm of a query row. -/
theorem norms_apply (x : Vec Ideal S1024x128 .f32) (r : Fin 1024) :
    (k0_pay5 (F := Ideal) x) (ix2 r (0 : Fin 1)) = ∑ d : Fin 128, x (ix2 r d) * x (ix2 r d) := by
  unfold k0_pay5
  rw [shapeCast_self]
  refine (Cert.Column.shapeCast_a_a1_apply _ shapeCasts_S1024_S1024x1 r (0 : Fin 1)).trans ?_
  refine (Ideal.multiReduction_add_single _ _ reduces_S1024x128_S1024 _ _ (ix1 r)).trans ?_
  refine Finset.sum_congr rfl fun d _ => ?_
  have e : reduces_S1024x128_S1024.lift (ix1 r) d = ix2 r d := by
    funext ax
    match ax with
    | ⟨0, _⟩ => rfl
    | ⟨1, _⟩ => rfl
  rw [e]
  rfl

/-- A query entry scaled by -1/2. -/
theorem scaled_apply (x : Vec Ideal S1024x128 .f32) (r : Fin 1024) (d : Fin 128) :
    (k0_pay6 (F := Ideal) x) (ix2 r d) = x (ix2 r d) * lit 0xBF000000#32 := by
  unfold k0_pay6
  rw [shapeCast_self]
  rfl

end Cert.KernelIdeal.Online

end
-- ==== Proof.Arrays.lean ====
/- The blocks the four input windows stage at a grid position, entry by entry, in terms of the argument arrays:
   the query block of the position's row block; and, of the position's tile, the rows of the address table padded
   with zero rows, their squared norms padded with the large constant, and the rows of the value table with its
   column of ones, padded with zeros. The three padded arrays are what the host operations before the launch write. -/
import proofs.«421776_j37220186587420_3_alg».proof.Proof.Chain
import proofs.«421776_j37220186587420_3_alg».proof.Proof.Spec
import proofs.«421776_j37220186587420_3_alg».proof.Proof.Lits
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.PureOps.Ideal.Laws

noncomputable section

open scoped BigOperators

open Idealize.ShloMosaic Idealize.ShloMosaic.TcCoe Idealize.SL.Sem Idealize.ShloMosaic.ValueIdx

namespace Cert.KernelIdeal.Arrays

open Cert.KernelIdeal Cert.KernelIdeal.Gen Cert.KernelIdeal.Online Cert.KernelIdeal.Args Cert.Softmin

variable (m : (ℓ : Loc nD τ sig) → Buf (Elt Ideal) ℓ)

/-! ## Where each window's block sits in its array -/

/-- The query window's block index at position `t` is (row block `t / 98`, 0). -/
theorem idx0 : ∀ t : Fin cfg0.N, win0_0.index t 0 = t.val / 98 ∧ win0_0.index t 1 = 0 :=
  (by decide +kernel : ∀ t : Fin grid0.N, win0_0.index t 0 = t.val / 98 ∧ win0_0.index t 1 = 0)
/-- The address window's block index at position `t` is (tile `t % 98`, 0). -/
theorem idx1 : ∀ t : Fin cfg0.N, win0_1.index t 0 = t.val % 98 ∧ win0_1.index t 1 = 0 :=
  (by decide +kernel : ∀ t : Fin grid0.N, win0_1.index t 0 = t.val % 98 ∧ win0_1.index t 1 = 0)
/-- The norm window's block index at position `t` is (0, tile `t % 98`). -/
theorem idx2 : ∀ t : Fin cfg0.N, win0_2.index t 0 = 0 ∧ win0_2.index t 1 = t.val % 98 :=
  (by decide +kernel : ∀ t : Fin grid0.N, win0_2.index t 0 = 0 ∧ win0_2.index t 1 = t.val % 98)
/-- The value window's block index at position `t` is (tile `t % 98`, 0). -/
theorem idx3 : ∀ t : Fin cfg0.N, win0_3.index t 0 = t.val % 98 ∧ win0_3.index t 1 = 0 :=
  (by decide +kernel : ∀ t : Fin grid0.N, win0_3.index t 0 = t.val % 98 ∧ win0_3.index t 1 = 0)

/-- Entry `k` of tile `t % 98` is a row of the padded tables (98 tiles of 1024 rows). -/
theorem tile_lt (t : Fin cfg0.N) (k : Fin 1024) : 1024 * (t.val % 98) + k.val < 100352 := by
  have := k.isLt; omega

/-! ## The three padded arrays as terms over the argument arrays -/

/-- The padded address table: the address table with 352 zero rows appended (the narrowing of the element type is
    the identity on the extended reals). -/
theorem V_v8 (c : Dev nD) : (V m c main_v8 : S100352x128.Idx → EReal)
    = truncf (F := Ideal) .bf16 (pad (α := Ideal .f32) S100352x128 ![0, 0] ![352, 0] ![0, 0]
        (m ((c.tc : Thread nD τ).loc main_arg1) : S100000x128.Idx → EReal)
        (sitofp (F := Ideal) .f32 (constantI S_ 32 0#32)) pads_S100000x128_S100352x128_03520_000 h_S_) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The padded squared norms: the row sums of the entrywise square of the address table, with 352 entries of the
    large constant appended, as a one-row matrix. -/
theorem V_v9 (c : Dev nD) : (V m c main_v9 : S1x100352.Idx → EReal)
    = shapeCast S1x100352 (pad (α := Ideal .f32) S100352 ![0] ![352] ![0]
        (Host.reduceAdd (F := Ideal) (φ := .f32)
          (mulf (F := Ideal) (m ((c.tc : Thread nD τ).loc main_arg1) : S100000x128.Idx → EReal) (m ((c.tc : Thread nD τ).loc main_arg1) : S100000x128.Idx → EReal))
          (constant (F := Ideal) S_ .f32 0x00000000#32) reducesTo_S100000x128_S100000_d1 h_S_)
        (constant (F := Ideal) S_ .f32 0x5368D4A5#32) pads_S100000_S100352_03520 h_S_) shapeCasts_S100352_S1x100352 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-- The padded value table: the value table with a column of ones appended, then 27 zero columns, then 352 zero rows. -/
theorem V_v6 (c : Dev nD) : (V m c main_v6 : S100352x128.Idx → EReal)
    = pad (α := Ideal .f32) S100352x128 ![0, 0] ![352, 0] ![0, 0]
        (pad (α := Ideal .f32) S100000x128 ![0, 0] ![0, 27] ![0, 0]
          (concatenate (α := Ideal .f32) S100000x101 1
            [⟨S100000x100, (m ((c.tc : Thread nD τ).loc main_arg2) : S100000x100.Idx → EReal)⟩,
             ⟨S100000x1, broadcastInDim S100000x1 ![] bcast_S_S100000x1 (constant (F := Ideal) S_ .f32 0x3F800000#32)⟩]
            concatenates_S100000x100_S100000x1_S100000x101_d1)
          (sitofp (F := Ideal) .f32 (constantI S_ 32 0#32)) pads_S100000x101_S100000x128_000_0270 h_S_)
        (sitofp (F := Ideal) .f32 (constantI S_ 32 0#32)) pads_S100000x128_S100352x128_03520_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-! ## The concatenation read at a column -/

/-- The value table with the column of ones, read at a column of the table. -/
theorem concat_table {α : Type} (M : S100000x100.Idx → α) (B : S100000x1.Idx → α) (n : Fin 100000) (j : Fin 101)
    (hj : j.val < 100) :
    concatenate S100000x101 1 [⟨S100000x100, M⟩, ⟨S100000x1, B⟩] concatenates_S100000x100_S100000x1_S100000x101_d1 (ix2 n j)
      = M (ix2 n ⟨j.val, hj⟩) := by
  refine concatenate_apply_piece (t := S100000x101) 1 [⟨S100000x100, M⟩, ⟨S100000x1, B⟩] concatenates_S100000x100_S100000x1_S100000x101_d1
    (ix2 n j) 0 (by simp) S100000x100 M rfl rfl 0 rfl (ix2 n ⟨j.val, hj⟩) (fun b hb => ?_) ?_
  · match b with
    | ⟨0, _⟩ => rfl
    | ⟨1, _⟩ => exact absurd rfl hb
  · show 0 + j.val = j.val
    omega

/-- The value table with the column of ones, read at the appended column. -/
theorem concat_ones {α : Type} (M : S100000x100.Idx → α) (B : S100000x1.Idx → α) (n : Fin 100000) (j : Fin 101)
    (hj : j.val = 100) :
    concatenate S100000x101 1 [⟨S100000x100, M⟩, ⟨S100000x1, B⟩] concatenates_S100000x100_S100000x1_S100000x101_d1 (ix2 n j)
      = B (ix2 n (0 : Fin 1)) := by
  refine concatenate_apply_piece (t := S100000x101) 1 [⟨S100000x100, M⟩, ⟨S100000x1, B⟩] concatenates_S100000x100_S100000x1_S100000x101_d1
    (ix2 n j) 1 (by simp) S100000x1 B rfl rfl 100 rfl (ix2 n (0 : Fin 1)) (fun b hb => ?_) ?_
  · match b with
    | ⟨0, _⟩ => rfl
    | ⟨1, _⟩ => exact absurd rfl hb
  · show 100 + 0 = j.val
    omega

/-! ## A block's entry is its array's entry at (tile offset + row) -/

/-- The address block's entry is the padded address table's. -/
theorem readA (c : Dev nD) (t : Fin cfg0.N) (k : Fin 1024) (d : Fin 128) :
    (iblk m c 1 t : Vec Ideal S1024x128 .bf16) (ix2 k d)
      = (V m c main_v8 : S100352x128.Idx → EReal) (ix2 ⟨1024 * (t.val % 98) + k.val, tile_lt t k⟩ d) := by
  unfold iblk
  rw [View.read_apply]
  show V m c main_v8 _ = _
  refine congrArg _ (funext fun a => Fin.ext ?_)
  match a with
  | ⟨0, _⟩ =>
    show win0_1.index t 0 * 1024 + 1 * k.val = 1024 * (t.val % 98) + k.val
    rw [(idx1 t).1]; omega
  | ⟨1, _⟩ =>
    show win0_1.index t 1 * 128 + 1 * d.val = d.val
    rw [(idx1 t).2]; omega

/-- The norm block's entry is the padded norm row's. -/
theorem readN (c : Dev nD) (t : Fin cfg0.N) (k : Fin 1024) :
    (iblk m c 2 t : Vec Ideal S1x1024 .f32) (ix2 (0 : Fin 1) k)
      = (V m c main_v9 : S1x100352.Idx → EReal) (ix2 (0 : Fin 1) ⟨1024 * (t.val % 98) + k.val, tile_lt t k⟩) := by
  unfold iblk
  rw [View.read_apply]
  show V m c main_v9 _ = _
  refine congrArg _ (funext fun a => Fin.ext ?_)
  match a with
  | ⟨0, _⟩ =>
    show win0_2.index t 0 * 1 + 1 * 0 = 0
    rw [(idx2 t).1]
  | ⟨1, _⟩ =>
    show win0_2.index t 1 * 1024 + 1 * k.val = 1024 * (t.val % 98) + k.val
    rw [(idx2 t).2]; omega

/-- The value block's entry is the padded value table's. -/
theorem readM (c : Dev nD) (t : Fin cfg0.N) (k : Fin 1024) (cc : Fin 128) :
    (iblk m c 3 t : Vec Ideal S1024x128 .f32) (ix2 k cc)
      = (V m c main_v6 : S100352x128.Idx → EReal) (ix2 ⟨1024 * (t.val % 98) + k.val, tile_lt t k⟩ cc) := by
  unfold iblk
  rw [View.read_apply]
  show V m c main_v6 _ = _
  refine congrArg _ (funext fun a => Fin.ext ?_)
  match a with
  | ⟨0, _⟩ =>
    show win0_3.index t 0 * 1024 + 1 * k.val = 1024 * (t.val % 98) + k.val
    rw [(idx3 t).1]; omega
  | ⟨1, _⟩ =>
    show win0_3.index t 1 * 128 + 1 * cc.val = cc.val
    rw [(idx3 t).2]; omega

/-! ## The four blocks in the specification's terms -/

/-- The query block: row `r` of position `t`'s block is query row `rowIdx t r`. -/
theorem blockX (c : Dev nD) (t : Fin cfg0.N) (r : Fin 1024) (d : Fin 128) :
    (iblk m c 0 t : Vec Ideal S1024x128 .f32) (ix2 r d) = Xof m c (rowIdx t r) d := by
  unfold iblk
  rw [View.read_apply]
  show V m c main_arg0 _ = _
  rw [V_main_arg0]
  unfold Xof
  refine congrArg _ (funext fun a => Fin.ext ?_)
  match a with
  | ⟨0, _⟩ =>
    show win0_0.index t 0 * 1024 + 1 * r.val = 1024 * (t.val / 98) + r.val
    rw [(idx0 t).1]; omega
  | ⟨1, _⟩ =>
    show win0_0.index t 1 * 128 + 1 * d.val = d.val
    rw [(idx0 t).2]; omega

/-- The address block: row `k` of position `t`'s block is padded address row `1024 * (t % 98) + k`. -/
theorem blockA (c : Dev nD) (t : Fin cfg0.N) (k : Fin 1024) (d : Fin 128) :
    (iblk m c 1 t : Vec Ideal S1024x128 .bf16) (ix2 k d) = Ap (Aof m c) (1024 * (t.val % 98) + k.val) d := by
  rw [readA, V_v8, truncf_apply]
  unfold Ap
  by_cases h : 1024 * (t.val % 98) + k.val < 100000
  · rw [dif_pos h]
    unfold Aof
    refine pad_apply_of_inside _ _ _ _ _ _ _ _ (ix2 ⟨_, h⟩ d) (fun a => ?_)
    match a with
    | ⟨0, _⟩ => show 1024 * (t.val % 98) + k.val = 0 + (1024 * (t.val % 98) + k.val) * (0 + 1); omega
    | ⟨1, _⟩ => show d.val = 0 + d.val * (0 + 1); omega
  · rw [dif_neg h]
    rw [pad_apply_of_not_inside _ _ _ _ _ _ _ _ (0 : Fin 2) (by
      show ¬(0 ≤ 1024 * (t.val % 98) + k.val ∧ (1024 * (t.val % 98) + k.val - 0) % (0 + 1) = 0 ∧ (1024 * (t.val % 98) + k.val - 0) / (0 + 1) < 100000)
      omega)]
    rw [sitofp_apply, constantI_apply]
    exact sitofp_zero (φ := .f32)

/-- The norm block: entry `k` is the padded squared norm of address row `1024 * (t % 98) + k`. -/
theorem blockN (c : Dev nD) (t : Fin cfg0.N) (k : Fin 1024) :
    (iblk m c 2 t : Vec Ideal S1x1024 .f32) (ix2 (0 : Fin 1) k) = nAp (Aof m c) (1024 * (t.val % 98) + k.val) := by
  rw [readN, V_v9, shapeCast_a_1a_apply]
  unfold nAp
  by_cases h : 1024 * (t.val % 98) + k.val < 100000
  · rw [dif_pos h]
    rw [pad_apply_of_inside _ _ _ _ _ _ _ _ (ix1 ⟨_, h⟩) (fun a => by
      match a with
      | ⟨0, _⟩ => show 1024 * (t.val % 98) + k.val = 0 + (1024 * (t.val % 98) + k.val) * (0 + 1); omega)]
    have hr : S100000x128.Reduces [1] S100000 :=
      ⟨reducesTo_S100000x128_S100000_d1.1, Nat.one_pos, reducesTo_S100000x128_S100000_d1.2⟩
    show Ideal.hostReduceAdd reducesTo_S100000x128_S100000_d1 _ _ _ = _
    rw [Ideal.hostReduceAdd_single reducesTo_S100000x128_S100000_d1 hr, constant_apply, Ideal.ofBits_zero_f32, zero_add]
    refine Finset.sum_congr rfl fun d _ => ?_
    rw [mulf_apply]
    unfold Aof
    have e : hr.lift (ix1 ⟨1024 * (t.val % 98) + k.val, h⟩) d = ix2 ⟨1024 * (t.val % 98) + k.val, h⟩ d := by
      funext a; apply Fin.ext
      match a with
      | ⟨0, _⟩ => rfl
      | ⟨1, _⟩ => rfl
    rw [e]
    rfl
  · rw [dif_neg h]
    rw [pad_apply_of_not_inside _ _ _ _ _ _ _ _ (0 : Fin 1) (by
      show ¬(0 ≤ 1024 * (t.val % 98) + k.val ∧ (1024 * (t.val % 98) + k.val - 0) % (0 + 1) = 0 ∧ (1024 * (t.val % 98) + k.val - 0) / (0 + 1) < 100000)
      omega)]
    rw [constant_apply]

/-- The value block: row `k` is the padded, ones-augmented value row `1024 * (t % 98) + k`. -/
theorem blockM (c : Dev nD) (t : Fin cfg0.N) (k : Fin 1024) (cc : Fin 128) :
    (iblk m c 3 t : Vec Ideal S1024x128 .f32) (ix2 k cc) = Mp (Mof m c) (1024 * (t.val % 98) + k.val) cc := by
  rw [readM, V_v6]
  unfold Mp
  by_cases h : 1024 * (t.val % 98) + k.val < 100000
  · rw [dif_pos h]
    rw [pad_apply_of_inside _ _ _ _ _ _ _ _ (ix2 ⟨_, h⟩ cc) (fun a => by
      match a with
      | ⟨0, _⟩ => show 1024 * (t.val % 98) + k.val = 0 + (1024 * (t.val % 98) + k.val) * (0 + 1); omega
      | ⟨1, _⟩ => show cc.val = 0 + cc.val * (0 + 1); omega)]
    by_cases h2 : cc.val < 100
    · rw [dif_pos h2]
      rw [pad_apply_of_inside _ _ _ _ _ _ _ _ (ix2 ⟨_, h⟩ (⟨cc.val, by omega⟩ : Fin 101)) (fun a => by
        match a with
        | ⟨0, _⟩ => show 1024 * (t.val % 98) + k.val = 0 + (1024 * (t.val % 98) + k.val) * (0 + 1); omega
        | ⟨1, _⟩ => show cc.val = 0 + cc.val * (0 + 1); omega)]
      rw [concat_table _ _ _ _ h2]
      rfl
    · rw [dif_neg h2]
      by_cases h3 : cc.val = 100
      · rw [if_pos h3]
        rw [pad_apply_of_inside _ _ _ _ _ _ _ _ (ix2 ⟨_, h⟩ (⟨cc.val, by omega⟩ : Fin 101)) (fun a => by
          match a with
          | ⟨0, _⟩ => show 1024 * (t.val % 98) + k.val = 0 + (1024 * (t.val % 98) + k.val) * (0 + 1); omega
          | ⟨1, _⟩ => show cc.val = 0 + cc.val * (0 + 1); omega)]
        rw [concat_ones _ _ _ _ h3]
        rw [broadcastInDim_apply _ _ _ _ (fun a => a.elim0) (fun a => a.elim0), constant_apply, Cert.Lits.one, EReal.coe_one]
      · rw [if_neg h3]
        rw [pad_apply_of_not_inside _ _ _ _ _ _ _ _ (1 : Fin 2) (by
          show ¬(0 ≤ cc.val ∧ (cc.val - 0) % (0 + 1) = 0 ∧ (cc.val - 0) / (0 + 1) < 101)
          omega)]
        rw [sitofp_apply, constantI_apply]
        exact sitofp_zero (φ := .f32)
  · rw [dif_neg h]
    rw [pad_apply_of_not_inside _ _ _ _ _ _ _ _ (0 : Fin 2) (by
      show ¬(0 ≤ 1024 * (t.val % 98) + k.val ∧ (1024 * (t.val % 98) + k.val - 0) % (0 + 1) = 0 ∧ (1024 * (t.val % 98) + k.val - 0) / (0 + 1) < 100000)
      omega)]
    rw [sitofp_apply, constantI_apply]
    exact sitofp_zero (φ := .f32)

end Cert.KernelIdeal.Arrays

end
-- ==== Proof.Glue.lean ====
/- The carried scratch after a grid position, row by row, is the running minimum and the running accumulator of
   that row's scaled distances over the tiles done so far, with the row's squared norm and its query scaled by -1/2:
   by induction on the position, a tile's update read entry by entry over the tile's blocks. -/
import proofs.«421776_j37220186587420_3_alg».proof.Proof.Chain
import proofs.«421776_j37220186587420_3_alg».proof.Proof.Spec
import proofs.«421776_j37220186587420_3_alg».proof.Proof.PayIdx
import proofs.«421776_j37220186587420_3_alg».proof.Proof.Arrays

noncomputable section

open scoped BigOperators

open Idealize.ShloMosaic Idealize.ShloMosaic.TcCoe Idealize.SL.Sem Idealize.ShloMosaic.ValueIdx

namespace Cert.KernelIdeal.Online

open Cert.KernelIdeal Cert.KernelIdeal.Gen Cert.KernelIdeal.Args Cert.KernelIdeal.Arrays Cert.Softmin

variable (m : (ℓ : Loc nD τ sig) → Buf (Elt Ideal) ℓ)

/-- What the scratch `s` holds at lane `r` when it stands for query row `b` after `j` tiles. -/
def Holds (c : Dev nD) (s : Scr Ideal) (r : Fin 1024) (b : Fin 2048) (j : ℕ) : Prop :=
  s.1 (ix2 r (0 : Fin 1)) = runMin (kd (Xof m c) (Aof m c) b) j
  ∧ s.2.1 (ix2 r (0 : Fin 1)) = knx (Xof m c) b
  ∧ (∀ d : Fin 128, s.2.2.1 (ix2 r d) = kxs (Xof m c) b d)
  ∧ (∀ cc : Fin 128, s.2.2.2 (ix2 r cc) = runAcc (kd (Xof m c) (Aof m c) b) (fun n => Mp (Mof m c) n cc) j)

/-- With the row's squared norm and scaled query in the scratch, a tile's distance at lane `r` to the tile's
    address row `k` is the scaled distance of the row to padded address `1024 * (t % 98) + k`. -/
theorem tileDist_eq (c : Dev nD) (t : Fin cfg0.N) (s : Scr Ideal) (r k : Fin 1024) (b : Fin 2048)
    (hn : s.2.1 (ix2 r (0 : Fin 1)) = knx (Xof m c) b)
    (hx : ∀ d : Fin 128, s.2.2.1 (ix2 r d) = kxs (Xof m c) b d) :
    tileDist (iblk m c 1 t) (iblk m c 2 t) s r k = kd (Xof m c) (Aof m c) b (1024 * (t.val % 98) + k.val) := by
  have hs : (∑ d : Fin 128, s.2.2.1 (ix2 r d) * (iblk m c 1 t : Vec Ideal S1024x128 .bf16) (ix2 k d))
      = ∑ d : Fin 128, kxs (Xof m c) b d * Ap (Aof m c) (1024 * (t.val % 98) + k.val) d :=
    Finset.sum_congr rfl (fun d _ => by rw [hx d, blockA m c t k d])
  unfold tileDist kd
  rw [hn, blockN m c t k, hs]

/-- A tile's update takes the state after `j` tiles to the state after `j + 1` tiles, when the tile is tile `j`. -/
theorem next_holds (c : Dev nD) (t : Fin cfg0.N) (s : Scr Ideal) (r : Fin 1024) (b : Fin 2048) (j : ℕ)
    (hj : t.val % 98 = j) (h : Holds m c s r b j) :
    Holds m c (next (iblk m c 1 t) (iblk m c 2 t) (iblk m c 3 t) s) r b (j + 1) := by
  obtain ⟨h1, h2, h3, h4⟩ := h
  have hd : ∀ k : Fin 1024, tileDist (iblk m c 1 t) (iblk m c 2 t) s r k
      = kd (Xof m c) (Aof m c) b (1024 * j + k.val) := fun k => by
    rw [tileDist_eq m c t s r k b h2 h3, hj]
  have hmin : (next (iblk m c 1 t) (iblk m c 2 t) (iblk m c 3 t) s).1 (ix2 r (0 : Fin 1))
      = runMin (kd (Xof m c) (Aof m c) b) (j + 1) := by
    rw [next_min (iblk m c 1 t) (iblk m c 2 t) (iblk m c 3 t) s r, h1]
    simp only [runMin]
    congr 1
    exact Finset.inf_congr rfl (fun k _ => hd k)
  refine ⟨hmin, ?_, ?_, ?_⟩
  · rw [next_nx]; exact h2
  · intro d; rw [next_xs]; exact h3 d
  · intro cc
    rw [next_acc (iblk m c 1 t) (iblk m c 2 t) (iblk m c 3 t) s r cc, hmin, h1, h4 cc]
    simp only [runAcc]
    congr 1
    exact Finset.sum_congr rfl (fun k _ => by rw [hd k, blockM m c t k cc, hj])

/-- The first tile of a row block: the reset state stands for the row after no tile, so the result is the state
    after one tile. -/
theorem first_holds (c : Dev nD) (t : Fin cfg0.N) (r : Fin 1024) (h0 : t.val % 98 = 0) :
    Holds m c (first (iblk m c 0 t) (iblk m c 1 t) (iblk m c 2 t) (iblk m c 3 t)) r (rowIdx t r) (0 + 1) := by
  unfold first
  refine next_holds m c t _ r (rowIdx t r) 0 h0 ⟨?_, ?_, ?_, ?_⟩
  · show k0_pay3 (F := Ideal) (ix2 r (0 : Fin 1)) = _
    rw [reset_min]; rfl
  · show k0_pay5 (F := Ideal) (iblk m c 0 t) (ix2 r (0 : Fin 1)) = _
    rw [norms_apply]
    unfold knx
    exact Finset.sum_congr rfl (fun d _ => by rw [blockX m c t r d])
  · intro d
    show k0_pay6 (F := Ideal) (iblk m c 0 t) (ix2 r d) = _
    rw [scaled_apply, blockX m c t r d]; rfl
  · intro cc
    show k0_pay4 (F := Ideal) (ix2 r cc) = _
    rw [reset_acc]; rfl

/-- The statement at every position, by induction on the position. -/
theorem scr_holds (c : Dev nD) : ∀ (n : ℕ) (h : n < cfg0.N) (r : Fin 1024),
    Holds m c (scr m c n h) r (rowIdx ⟨n, h⟩ r) (n % 98 + 1) := by
  intro n
  induction n with
  | zero =>
    intro h r
    have := first_holds m c ⟨0, h⟩ r rfl
    simpa only [scr] using this
  | succ n ih =>
    intro h r
    by_cases h0 : (n + 1) % 98 = 0
    · have := first_holds m c ⟨n + 1, h⟩ r h0
      rw [h0]
      simpa only [scr, if_pos h0] using this
    · have hlt : n < cfg0.N := Nat.lt_of_succ_lt h
      have hmod : (n + 1) % 98 = n % 98 + 1 := by omega
      have hrow : rowIdx ⟨n + 1, h⟩ r = rowIdx ⟨n, hlt⟩ r := by
        apply Fin.ext
        show 1024 * ((n + 1) / 98) + r.val = 1024 * (n / 98) + r.val
        have : (n + 1) / 98 = n / 98 := by omega
        rw [this]
      have := next_holds m c ⟨n + 1, h⟩ (scr m c n hlt) r (rowIdx ⟨n, hlt⟩ r) (n % 98 + 1) hmod (ih hlt r)
      rw [hrow, hmod]
      simpa only [scr, if_neg h0] using this

/-- The scratch after position `t`, at lane `r`: the row's running minimum and accumulator after `t % 98 + 1` tiles,
    its squared norm and its scaled query. -/
theorem scr_spec (c : Dev nD) (t : Fin cfg0.N) (r : Fin 1024) :
    (scr m c t.val t.isLt).1 (ix2 r (0 : Fin 1)) = runMin (kd (Xof m c) (Aof m c) (rowIdx t r)) (t.val % 98 + 1)
    ∧ (scr m c t.val t.isLt).2.1 (ix2 r (0 : Fin 1)) = knx (Xof m c) (rowIdx t r)
    ∧ (∀ d : Fin 128, (scr m c t.val t.isLt).2.2.1 (ix2 r d) = kxs (Xof m c) (rowIdx t r) d)
    ∧ (∀ cc : Fin 128, (scr m c t.val t.isLt).2.2.2 (ix2 r cc)
        = runAcc (kd (Xof m c) (Aof m c) (rowIdx t r)) (fun n => Mp (Mof m c) n cc) (t.val % 98 + 1)) :=
  scr_holds m c t.val t.isLt r

end Cert.KernelIdeal.Online

end
-- ==== Proof.Pieces.lean ====
/- What the generated frame run found in the carried scratch after each grid point is the recursion of Chain.lean:
   each control case's stores, read back, are the payloads of the tile's update over the blocks the point stages
   and the scratch the point before left; and at the last tile of a row block the output block is the accumulator. -/
import proofs.«421776_j37220186587420_3_alg».proof.Proof.Chain
import Idealize.ShloMosaic.Lib.Pipeline.Value
import Idealize.ShloMosaic.Lib.Tactic

noncomputable section

open Idealize.ShloMosaic Idealize.ShloMosaic.TcCoe Idealize.SL.Sem

namespace Cert.KernelIdeal.Online

open Cert.KernelIdeal Cert.KernelIdeal.Gen

variable {F : FTy → Type} [FloatOps F]
variable (m : (ℓ : Loc nD τ sig) → Buf (Elt F) ℓ)

/-- The offset of a store that starts at the origin of a rank-2 buffer is the zero offset. -/
theorem piece_hz : (![0, 0] : Fin 2 → Nat) = fun _ => 0 := funext fun a => by fin_cases a <;> rfl

/-! ## An inner tile (neither first nor last of its row block)

The one store into the minimum covers it: the fold of the tile's distances into the minimum the point before left.
The one store into the accumulator covers it: the accumulator the point before left, rescaled, plus the tile's
weights against the tile's value rows. Every load reads a whole buffer: the staged blocks, or the scratch as the
point before left it. -/

/-- Inner tile: the running minimum after the tile. -/
theorem piece_B_0 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay8 x1 xs2 x2 xs1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, shapeCast_self]

/-- Inner tile: the accumulator after the tile. -/
theorem piece_B_3 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay9 x1 xs2 x2 xs1 xs0 xs0) (k0_pay10 x1 xs2 x2 xs1 xs0) (k0_pay11 x3) zacc xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, shapeCast_self]

/-! ## The last tile of a row block

The same two stores as at an inner tile; then the output block receives the accumulator, loaded back after its store. -/

/-- Last tile: the running minimum after the tile. -/
theorem piece_C_0 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = k0_pay2 (k0_pay8 x1 xs2 x2 xs1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, shapeCast_self]

/-- Last tile: the accumulator after the tile. -/
theorem piece_C_3 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay9 x1 xs2 x2 xs1 xs0 xs0) (k0_pay10 x1 xs2 x2 xs1 xs0) (k0_pay11 x3) zacc xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, shapeCast_self]

/-- Last tile: the output block holds the accumulator after the tile (a load of the whole accumulator after the one store that covers it reads that store's payload). -/
theorem piece_C_4 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    out0_C_4 c i arg2 harg2 arg3 harg3 arg4 harg4 arg5 harg5 arg6 harg6 arg7 harg7 arg8 harg8 arg9 harg9 arg10 harg10 hc0 hc1 x0 x1 x2 x3 xs0 xs1 xs2 xs3 = k0_pay1 (k0_pay9 x1 xs2 x2 xs1 xs0 xs0) (k0_pay10 x1 xs2 x2 xs1 xs0) (k0_pay11 x3) zacc xs3 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, View.readCov_unit_zero (S := S1024x1) _ piece_hz, View.readCov_unit_zero (S := S1024x128) _ piece_hz, shapeCast_self]

/-! ## The first tile of a row block

The minimum is reset to +infinity and the accumulator to zero, the query norms and the scaled queries are computed
from the query block and stored; each later load of a scratch buffer reads the one store that precedes it, and the
update's store, coming last and covering the buffer, is what the minimum and the accumulator end with. -/

/-- First tile: the running minimum is the tile's update of the reset minimum. -/
theorem piece_A_0 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : cond0_0 i) (hc1 : ¬cond0_1 i)
    (x0 : Vec F S1024x128 .f32) (x1 : Vec F S1024x128 .bf16) (x2 : Vec F S1x1024 .f32) (x3 : Vec F S1024x128 .f32) :
    sout0_A_0 c i arg2 harg2 arg3 harg3 arg4 harg4 arg5 harg5 arg6 harg6 arg7 harg7 arg8 harg8 arg9 harg9 arg10 harg10 hc0 hc1 x0 x1 x2 x3 = k0_pay2 (k0_pay8 x1 (k0_pay6 x0) x2 (k0_pay5 x0) k0_pay3) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x1) piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, View.readCov_unit_zero (S := S1024x1) _ piece_hz, View.readCov_unit_zero (S := S1024x128) _ piece_hz, shapeCast_self]

/-- First tile: the query norms. -/
theorem piece_A_1 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : cond0_0 i) (hc1 : ¬cond0_1 i)
    (x0 : Vec F S1024x128 .f32) (x1 : Vec F S1024x128 .bf16) (x2 : Vec F S1x1024 .f32) (x3 : Vec F S1024x128 .f32) :
    sout0_A_1 c i arg2 harg2 arg3 harg3 arg4 harg4 arg5 harg5 arg6 harg6 arg7 harg7 arg8 harg8 arg9 harg9 arg10 harg10 hc0 hc1 x0 x1 x2 x3 = k0_pay5 x0 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, View.readCov_unit_zero (S := S1024x1) _ piece_hz, View.readCov_unit_zero (S := S1024x128) _ piece_hz, shapeCast_self]

/-- First tile: the scaled queries. -/
theorem piece_A_2 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : cond0_0 i) (hc1 : ¬cond0_1 i)
    (x0 : Vec F S1024x128 .f32) (x1 : Vec F S1024x128 .bf16) (x2 : Vec F S1x1024 .f32) (x3 : Vec F S1024x128 .f32) :
    sout0_A_2 c i arg2 harg2 arg3 harg3 arg4 harg4 arg5 harg5 arg6 harg6 arg7 harg7 arg8 harg8 arg9 harg9 arg10 harg10 hc0 hc1 x0 x1 x2 x3 = k0_pay6 x0 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, View.readCov_unit_zero (S := S1024x1) _ piece_hz, View.readCov_unit_zero (S := S1024x128) _ piece_hz, shapeCast_self]

/-- First tile: the accumulator is the tile's update of the zero accumulator. -/
theorem piece_A_3 (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : cond0_0 i) (hc1 : ¬cond0_1 i)
    (x0 : Vec F S1024x128 .f32) (x1 : Vec F S1024x128 .bf16) (x2 : Vec F S1x1024 .f32) (x3 : Vec F S1024x128 .f32) :
    sout0_A_3 c i arg2 harg2 arg3 harg3 arg4 harg4 arg5 harg5 arg6 harg6 arg7 harg7 arg8 harg8 arg9 harg9 arg10 harg10 hc0 hc1 x0 x1 x2 x3 = k0_pay1 (k0_pay9 x1 (k0_pay6 x0) x2 (k0_pay5 x0) k0_pay3 k0_pay3) (k0_pay10 x1 (k0_pay6 x0) x2 (k0_pay5 x0) k0_pay3) (k0_pay11 x3) zacc k0_pay4 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1024x128) piece_hz]
  simp only [View.readAt_eq_ld, harg2.read_unread, harg3.read_unread, harg4.read_unread, harg5.read_unread, harg6.read_unread, harg7.read_unread, harg8.read_unread, harg9.read_unread, harg10.read_unread, View.ld_unit_zero (S := S1024x1) piece_hz, View.ld_unit_zero (S := S1024x128) piece_hz, View.ld_unit_zero (S := S1x1024) piece_hz, View.readCov_unit_zero (S := S1024x1) _ piece_hz, View.readCov_unit_zero (S := S1024x128) _ piece_hz, shapeCast_self]

/-! ## The three cases as steps of the recursion -/
/-- Case A (first tile of a row block): the four scratch buffers end as the reset followed by the tile's update. -/
theorem piece_A (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : cond0_0 i) (hc1 : ¬cond0_1 i)
    (x0 : Vec F S1024x128 .f32) (x1 : Vec F S1024x128 .bf16) (x2 : Vec F S1x1024 .f32) (x3 : Vec F S1024x128 .f32) :
    (sout0_A_0 c i arg2 harg2 arg3 harg3 arg4 harg4 arg5 harg5 arg6 harg6 arg7 harg7 arg8 harg8 arg9 harg9 arg10 harg10 hc0 hc1 x0 x1 x2 x3, sout0_A_1 c i arg2 harg2 arg3 harg3 arg4 harg4 arg5 harg5 arg6 harg6 arg7 harg7 arg8 harg8 arg9 harg9 arg10 harg10 hc0 hc1 x0 x1 x2 x3,
      sout0_A_2 c i arg2 harg2 arg3 harg3 arg4 harg4 arg5 harg5 arg6 harg6 arg7 harg7 arg8 harg8 arg9 harg9 arg10 harg10 hc0 hc1 x0 x1 x2 x3, sout0_A_3 c i arg2 harg2 arg3 harg3 arg4 harg4 arg5 harg5 arg6 harg6 arg7 harg7 arg8 harg8 arg9 harg9 arg10 harg10 hc0 hc1 x0 x1 x2 x3) = first x0 x1 x2 x3 := by
  rw [piece_A_0, piece_A_1, piece_A_2, piece_A_3]
  rfl

/-- Case B (an inner tile): the minimum and the accumulator are updated, the norms and the scaled queries kept. -/
theorem piece_B (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    (sout0_B_0 c i arg2 harg2 arg3 harg3 arg4 harg4 arg5 harg5 arg6 harg6 arg7 harg7 arg8 harg8 arg9 harg9 arg10 harg10 hc0 hc1 x0 x1 x2 x3 xs0 xs1 xs2 xs3, sout0_B_1 c i arg2 harg2 arg3 harg3 arg4 harg4 arg5 harg5 arg6 harg6 arg7 harg7 arg8 harg8 arg9 harg9 arg10 harg10 hc0 hc1 x0 x1 x2 x3 xs0 xs1 xs2 xs3,
      sout0_B_2 c i arg2 harg2 arg3 harg3 arg4 harg4 arg5 harg5 arg6 harg6 arg7 harg7 arg8 harg8 arg9 harg9 arg10 harg10 hc0 hc1 x0 x1 x2 x3 xs0 xs1 xs2 xs3, sout0_B_3 c i arg2 harg2 arg3 harg3 arg4 harg4 arg5 harg5 arg6 harg6 arg7 harg7 arg8 harg8 arg9 harg9 arg10 harg10 hc0 hc1 x0 x1 x2 x3 xs0 xs1 xs2 xs3) = next x1 x2 x3 (xs0, xs1, xs2, xs3) := by
  rw [piece_B_0, piece_B_3]
  rfl

/-- Case C (last tile of a row block): the same update of the scratch as at an inner tile. -/
theorem piece_C (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    (sout0_C_0 c i arg2 harg2 arg3 harg3 arg4 harg4 arg5 harg5 arg6 harg6 arg7 harg7 arg8 harg8 arg9 harg9 arg10 harg10 hc0 hc1 x0 x1 x2 x3 xs0 xs1 xs2 xs3, sout0_C_1 c i arg2 harg2 arg3 harg3 arg4 harg4 arg5 harg5 arg6 harg6 arg7 harg7 arg8 harg8 arg9 harg9 arg10 harg10 hc0 hc1 x0 x1 x2 x3 xs0 xs1 xs2 xs3,
      sout0_C_2 c i arg2 harg2 arg3 harg3 arg4 harg4 arg5 harg5 arg6 harg6 arg7 harg7 arg8 harg8 arg9 harg9 arg10 harg10 hc0 hc1 x0 x1 x2 x3 xs0 xs1 xs2 xs3, sout0_C_3 c i arg2 harg2 arg3 harg3 arg4 harg4 arg5 harg5 arg6 harg6 arg7 harg7 arg8 harg8 arg9 harg9 arg10 harg10 hc0 hc1 x0 x1 x2 x3 xs0 xs1 xs2 xs3) = next x1 x2 x3 (xs0, xs1, xs2, xs3) := by
  rw [piece_C_0, piece_C_3]
  rfl

/-- Case C: the output block is the accumulator the same point has just stored. -/
theorem piece_C_out (c : Dev nD) (i : grid0.Coords) (arg2 : Memref sig .tc .vmem S1024x128 .f32) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .bf16) (harg9 : arg9.IsWhole) (arg10 : Memref sig .tc .vmem S1024x128 .f32) (harg10 : arg10.IsWhole) (hc0 : ¬cond0_0 i) (hc1 : cond0_1 i)
    (x0 : Vec F S1024x128 .f32) (x1 : Vec F S1024x128 .bf16) (x2 : Vec F S1x1024 .f32) (x3 : Vec F S1024x128 .f32) (xs0 : Vec F S1024x1 .f32) (xs1 : Vec F S1024x1 .f32) (xs2 : Vec F S1024x128 .bf16) (xs3 : Vec F S1024x128 .f32) :
    out0_C_4 c i arg2 harg2 arg3 harg3 arg4 harg4 arg5 harg5 arg6 harg6 arg7 harg7 arg8 harg8 arg9 harg9 arg10 harg10 hc0 hc1 x0 x1 x2 x3 xs0 xs1 xs2 xs3 = sout0_C_3 c i arg2 harg2 arg3 harg3 arg4 harg4 arg5 harg5 arg6 harg6 arg7 harg7 arg8 harg8 arg9 harg9 arg10 harg10 hc0 hc1 x0 x1 x2 x3 xs0 xs1 xs2 xs3 := by
  rw [piece_C_4, piece_C_3]

/-- The scratch components of what the run found after position `n` are the recursion's. -/
theorem outsAt_scr (c : Dev nD) : ∀ (n : ℕ) (h : n < cfg0.N), (outsAt0 m c n h).2 = scr m c n h
  | 0, h => by
    have h1 : ¬(⟨0, h⟩ : Fin cfg0.N).val % 98 = 97 := by dsimp only; omega
    rw [outsAt0_A m c ⟨0, h⟩ rfl h1]
    dsimp only
    rw [piece_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) scM0_3 (Memref.isWhole_whole _) ((hcond0_0 ⟨0, h⟩).mpr rfl) (fun h' => h1 ((hcond0_1 ⟨0, h⟩).mp h')) (iblk m c 0 ⟨0, h⟩) (iblk m c 1 ⟨0, h⟩) (iblk m c 2 ⟨0, h⟩) (iblk m c 3 ⟨0, h⟩)]
    rw [scr]
  | n + 1, h => by
    have hN : cfg0.N = 196 := N_0
    have ih := outsAt_scr c n (Nat.lt_of_succ_lt h)
    by_cases h0 : (⟨n + 1, h⟩ : Fin cfg0.N).val % 98 = 0
    · have h1 : ¬(⟨n + 1, h⟩ : Fin cfg0.N).val % 98 = 97 := by dsimp only at h0 ⊢; omega
      rw [outsAt0_A m c ⟨n + 1, h⟩ h0 h1]
      dsimp only
      rw [piece_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) scM0_3 (Memref.isWhole_whole _) ((hcond0_0 ⟨n + 1, h⟩).mpr h0) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩)]
      rw [scr, if_pos h0]
    · by_cases h1 : (⟨n + 1, h⟩ : Fin cfg0.N).val % 98 = 97
      · rw [outsAt0_C m c ⟨n + 1, h⟩ h0 h1]
        dsimp only
        rw [scr, if_neg h0, ← ih]
        exact piece_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) scM0_3 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2
      · rw [outsAt0_B m c ⟨n + 1, h⟩ h0 h1]
        dsimp only
        rw [scr, if_neg h0, ← ih]
        exact piece_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) scM0_3 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2

/-- At the last tile of a row block the output's staging buffer holds the accumulator. -/
theorem outsAt_out (c : Dev nD) (t : Fin cfg0.N) (h97 : t.val % 98 = 97) :
    (outsAt0 m c t.val t.isLt).1 = (scr m c t.val t.isLt).2.2.2 := by
  have h0 : ¬t.val % 98 = 0 := by omega
  rw [← outsAt_scr m c t.val t.isLt, outsAt0_C m c t h0 h97]
  dsimp only
  exact piece_C_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h' => h0 ((hcond0_0 t).mp h')) ((hcond0_1 t).mpr h97) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Online

end
-- ==== Proof.Tail.lean ====
/- The kernel's run read back: the output array of the launch holds, in row block `b / 1024`, the accumulator left
   after that row block's last tile (the one write-back of the block), and the host operations after the launch
   divide its first 100 columns by column 100. -/
import proofs.«421776_j37220186587420_3_alg».proof.Proof.Chain
import proofs.«421776_j37220186587420_3_alg».proof.Proof.Pieces
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Online

variable (m : (ℓ : Loc nD τ sig) → Buf (Elt Ideal) ℓ) (ρ : Dev nD → PrngReg)

/-- The accumulator of query row `b` after its row block's last tile, at column `cc`. -/
def accAt (c : Dev nD) (b : Fin 2048) (cc : Fin 128) : EReal :=
  (scr m c (lastPos b).val (lastPos b).isLt).2.2.2 (ix2 (lane b) cc)

/-- The result: column `k` of the accumulator over its column 100. -/
def quot (c : Dev nD) : S2048x100.Idx → EReal := fun i =>
  Ideal.div (accAt m c ⟨(i 0).val, idx2_lt0 i⟩ ⟨(i 1).val, by have := idx2_lt1 i; omega⟩)
    (accAt m c ⟨(i 0).val, idx2_lt0 i⟩ ⟨100, by omega⟩)

/-- The whole output array of the launch: row `b`, column `cc` holds the accumulator of query row `b` at `cc`. -/
def outArr (c : Dev nD) : S2048x128.Idx → EReal := fun i =>
  accAt m c ⟨(i 0).val, idx2_lt0 i⟩ ⟨(i 1).val, idx2_lt1 i⟩

/-- The accumulator of a query row, read at the last position `t` of its row block and its lane `r` there. -/
theorem accAt_of (c : Dev nD) (t : Fin cfg0.N) (h97 : t.val % 98 = 97) (b : Fin 2048) (cc : Fin 128) (r : Fin 1024)
    (hb : b.val = 1024 * (t.val / 98) + r.val) :
    accAt m c b cc = (scr m c t.val t.isLt).2.2.2 (ix2 r cc) := by
  have e1 : lastPos b = t := Fin.ext (by show 98 * (b.val / 1024) + 97 = t.val; have := r.isLt; omega)
  have e2 : lane b = r := Fin.ext (by show b.val % 1024 = r.val; have := r.isLt; omega)
  subst e1
  unfold accAt
  rw [e2]

/-- The output window's block indices, decided over the grid: the row block of the position, and column block 0. -/
theorem idx_facts : ∀ t : Fin cfg0.N, win0_4.index t (0 : Fin 2) = t.val / 98 ∧ win0_4.index t (1 : Fin 2) = 0 :=
  (by decide +kernel : ∀ t : Fin grid0.N, win0_4.index t (0 : Fin 2) = t.val / 98 ∧ win0_4.index t (1 : Fin 2) = 0)

/-- What a flushing position writes back is its block of the output array. -/
theorem flushed_eq (c : Dev nD) (t : Fin cfg0.N) (hf : (cfg0.win 4).flush t = true) :
    (dats m 0 c).flushed 4 t = ((cfg0.win 4).blk t).view.read (Elt Ideal) (outArr m c) := by
  have h97 : t.val % 98 = 97 := (flush0_4 t).mp hf
  show (cfg0.win 4).cut (grid0.coords t) ((dats m 0 c).after 4 t) = _
  rw [after0_4, outsAt_out m c t h97]
  funext y
  have hy0 : (y 0).val < 1024 := (y 0).isLt
  have hy1 : (y 1).val < 128 := (y 1).isLt
  rw [View.read_apply]
  show (scr m c t.val t.isLt).2.2.2 ((cfg0.win 4).xinj (grid0.coords t) y) = outArr m c (((cfg0.win 4).blk t).view.emb y)
  unfold outArr
  refine ((accAt_of m c t h97 _ _ ⟨(y 0).val, hy0⟩ ?_).trans ?_).symm
  · show win0_4.index t (0 : Fin 2) * 1024 + 1 * (y 0).val = 1024 * (t.val / 98) + (y 0).val
    rw [(idx_facts t).1]; omega
  · refine congrArg _ (funext fun a => Fin.ext ?_)
    match a with
    | ⟨0, _⟩ => rfl
    | ⟨1, _⟩ => show win0_4.index t (1 : Fin 2) * 128 + 1 * (y 1).val = (y 1).val
                rw [(idx_facts t).2]; omega

/-- Every row of the output array lies in the block written back at the last position of its row block. -/
theorem cover (i : S2048x128.Idx) :
    ∃ t : Fin cfg0.N, (cfg0.win 4).flush t = true ∧ i ∈ ((cfg0.win 4).blk t).view.set := by
  have h0 : (i 0).val < 2048 := idx2_lt0 i
  have h1 : (i 1).val < 128 := idx2_lt1 i
  refine ⟨lastPos ⟨(i 0).val, h0⟩, (flush0_4 _).mpr (lastPos_mod _), ?_⟩
  show i ∈ ((View.whole main_v10).slice (win0_4.rect (lastPos ⟨(i 0).val, h0⟩))).set
  rw [View.set_slice_whole, Rect.mem_set_unit]
  intro a
  have hq : (lastPos ⟨(i 0).val, h0⟩).val / 98 = (i 0).val / 1024 := by
    show (98 * ((i 0).val / 1024) + 97) / 98 = (i 0).val / 1024
    omega
  match a with
  | ⟨0, _⟩ =>
    show win0_4.index (lastPos ⟨(i 0).val, h0⟩) (0 : Fin 2) * 1024 ≤ (i 0).val
      ∧ (i 0).val < win0_4.index (lastPos ⟨(i 0).val, h0⟩) (0 : Fin 2) * 1024 + 1024
    rw [(idx_facts _).1, hq]; omega
  | ⟨1, _⟩ =>
    show win0_4.index (lastPos ⟨(i 0).val, h0⟩) (1 : Fin 2) * 128 ≤ (i 1).val
      ∧ (i 1).val < win0_4.index (lastPos ⟨(i 0).val, h0⟩) (1 : Fin 2) * 128 + 128
    rw [(idx_facts _).2]; omega

/-- The output array of the launch after the run. -/
theorem final (c : Dev nD) : (dats m 0 c).arrAt 4 cfg0.N = outArr m c :=
  (dats m 0 c).arrAt_eq_of_cover 4 (outArr m c) (flushed_eq m c) cover

/-- The result array after the host operations that follow the launch. -/
theorem tail_eq (c : Dev nD) :
    Pipeline.afterTail₀ cfgs (dats m) 0 (V0 m) [hostOps1] c main_v14 = quot m c := by
  unfold Pipeline.afterTail₀
  show StableHlo.after hostOps1 _ (Proc.devRef .tc main_v14) = _
  after_results
  have hW : Pipeline.withArrays (cfgs 0).spec c (V0 m c) (fun w => (dats m 0 c).arrAt w (cfgs 0).N)
      (Proc.tc.devRef main_v10) = outArr m c :=
    (Pipeline.withArrays_arr spec0 launch0.win.arr_inj c _ _ 4).trans (final m c)
  rw [hW]
  funext i
  obtain ⟨p, q, rfl⟩ : ∃ (p : Fin 2048) (q : Fin 100), i = ix2 p q := ⟨i 0, i 1, eq_ix2 i⟩
  show Ideal.div
      (extractStridedSlice S2048x100 ![0, 0] (outArr m c) slices_S2048x128_S2048x100_0_0 (ix2 p q))
      (broadcastInDim S2048x100 ![0, 1] bcast_S2048x1_S2048x100_0_1
        (extractStridedSlice S2048x1 ![0, 100] (outArr m c) slices_S2048x128_S2048x1_0_100) (ix2 p q)) = _
  rw [slice2_axis1_apply 0 (outArr m c) slices_S2048x128_S2048x100_0_0 p q ⟨q.val, by have := q.isLt; omega⟩ (Nat.zero_add _).symm,
    broadcastInDim_apply ![0, 1] bcast_S2048x1_S2048x100_0_1 _ (ix2 p q) (ix2 p (0 : Fin 1)) (fun a => by
      match a with
      | ⟨0, _⟩ => rfl
      | ⟨1, _⟩ => rfl),
    slice2_axis1_apply 100 (outArr m c) slices_S2048x128_S2048x1_0_100 p (0 : Fin 1) ⟨100, by omega⟩ rfl]
  rfl

/-- The kernel program's run: it ends with the result array at the quotient and the arguments unchanged. -/
theorem run : θ_run defs (onTc (τ := τ) (main (F := Ideal))) ⟨m, fun _ => 0, ρ⟩ fun r => ∀ c : Dev nD,
      r.2.mem ((c.tc : Thread nD τ).loc main_v14) = quot m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun r h c => ⟨
      ((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Ideal) m ρ)

end Cert.KernelIdeal.Tail

end
-- ==== Proof.LibEdgeSum.lean ====
/-
  Sums over the edges of a weighted bipartite incidence, on the extended reals with real entries.

  Edges `e` carry a weight `v e`, a column `par e` and a membership test `sel e`. Summing a row vector `x` against the
  dense matrix whose entry at column `k` is the total weight of the selected edges of that column gives the same number
  as summing `x (par e) * v e` over the selected edges: multiplication distributes over the inner sums (all entries are
  real, so nothing is lost on the extended reals), the two sums are exchanged, and for each edge exactly one column
  survives.
-/
import Idealize.ShloMosaic.PureOps.Ideal.Laws

noncomputable section

open scoped BigOperators

namespace Cert.Lib.EdgeSum

/-- The coercion of a finite sum of reals into the extended reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Over the reals: a row against the dense form of the selected edges is the sum over the selected edges. -/
theorem regroup_real {E K : Type} [Fintype E] [Fintype K] [DecidableEq K]
    (xr : K → ℝ) (vr : E → ℝ) (par : E → K) (sel : E → Prop) [DecidablePred sel] :
    ∑ k : K, xr k * ∑ e ∈ Finset.univ.filter (fun e => sel e ∧ par e = k), vr e
      = ∑ e ∈ Finset.univ.filter sel, xr (par e) * vr e := by
  simp only [Finset.mul_sum, Finset.sum_filter]
  rw [Finset.sum_comm]
  refine Finset.sum_congr rfl fun e _ => ?_
  by_cases hs : sel e
  · simp [hs]
  · simp [hs]

/-- The same on the extended reals, every entry the coercion of a real. -/
theorem regroup {E K : Type} [Fintype E] [Fintype K] [DecidableEq K]
    (xr : K → ℝ) (vr : E → ℝ) (par : E → K) (sel : E → Prop) [DecidablePred sel] :
    ∑ k : K, (xr k : EReal) * ∑ e ∈ Finset.univ.filter (fun e => sel e ∧ par e = k), (vr e : EReal)
      = ∑ e ∈ Finset.univ.filter sel, (xr (par e) : EReal) * (vr e : EReal) := by
  calc ∑ k : K, (xr k : EReal) * ∑ e ∈ Finset.univ.filter (fun e => sel e ∧ par e = k), (vr e : EReal)
      = ∑ k : K, ((xr k * ∑ e ∈ Finset.univ.filter (fun e => sel e ∧ par e = k), vr e : ℝ) : EReal) := by
        refine Finset.sum_congr rfl fun k _ => ?_
        rw [EReal.coe_mul, coe_sum]
    _ = ((∑ k : K, xr k * ∑ e ∈ Finset.univ.filter (fun e => sel e ∧ par e = k), vr e : ℝ) : EReal) :=
        (coe_sum _ _).symm
    _ = ((∑ e ∈ Finset.univ.filter sel, xr (par e) * vr e : ℝ) : EReal) := by rw [regroup_real]
    _ = ∑ e ∈ Finset.univ.filter sel, ((xr (par e) * vr e : ℝ) : EReal) := coe_sum _ _
    _ = ∑ e ∈ Finset.univ.filter sel, (xr (par e) : EReal) * (vr e : EReal) :=
        Finset.sum_congr rfl fun e _ => EReal.coe_mul _ _

end Cert.Lib.EdgeSum

end
-- ==== Proof.Online.lean ====
/- The running minimum and the rescaled running accumulator over tiles of 1024 scores, in closed form when the
   scores and weights are real: after `J + 1` tiles the minimum is a real `μ`, and the accumulator is the sum over
   all scores seen of `exp (μ - d n) * w n`. Each rescaling multiplies the old sum by `exp (μ' - μ)`, and
   `exp (μ' - μ) * exp (μ - d n) = exp (μ' - d n)`; the first tile starts from the minimum +infinity, whose factor
   `exp (μ - ∞) = 0` multiplies the empty accumulator 0. -/
import proofs.«421776_j37220186587420_3_alg».proof.Proof.Spec
import proofs.«421776_j37220186587420_3_alg».proof.Proof.LibEdgeSum

noncomputable section

open scoped BigOperators

namespace Cert.Softmin

open Idealize.ShloMosaic

namespace Online

/-- The recurrence of the running minimum, one tile on. -/
theorem runMin_succ (d : ℕ → EReal) (j : ℕ) :
    runMin d (j + 1) = min (runMin d j) ((Finset.univ : Finset (Fin 1024)).inf fun k => d (1024 * j + k.val)) := rfl

/-- The recurrence of the running accumulator, one tile on. -/
theorem runAcc_succ (d w : ℕ → EReal) (j : ℕ) :
    runAcc d w (j + 1) = Ideal.exp (runMin d (j + 1) - runMin d j) * runAcc d w j
      + ∑ k : Fin 1024, Ideal.exp (runMin d (j + 1) - d (1024 * j + k.val)) * w (1024 * j + k.val) := rfl

/-- The coercion of the smaller of two reals is the smaller of the coercions. -/
theorem coe_min_real (x y : ℝ) : ((min x y : ℝ) : EReal) = min (x : EReal) (y : EReal) :=
  EReal.coe_strictMono.monotone.map_min

/-- The minimum of a tile of 1024 real scores is one of them, hence real. -/
theorem tileInf_real (f : Fin 1024 → EReal) (fr : Fin 1024 → ℝ) (hf : ∀ k, f k = (fr k : EReal)) :
    ∃ t : ℝ, (Finset.univ : Finset (Fin 1024)).inf f = (t : EReal) := by
  obtain ⟨k, _, hk⟩ := Finset.exists_mem_eq_inf (Finset.univ : Finset (Fin 1024)) Finset.univ_nonempty f
  exact ⟨fr k, by rw [hk, hf]⟩

/-- The terms a tile of real scores and weights adds at the real minimum `ν`: the coercion of a real sum. -/
theorem tile_sum (d w : ℕ → EReal) (dr wr : ℕ → ℝ) (j : ℕ) (ν : ℝ)
    (hd : ∀ k : Fin 1024, d (1024 * j + k.val) = (dr (1024 * j + k.val) : EReal))
    (hw : ∀ k : Fin 1024, w (1024 * j + k.val) = (wr (1024 * j + k.val) : EReal)) :
    ∑ k : Fin 1024, Ideal.exp ((ν : EReal) - d (1024 * j + k.val)) * w (1024 * j + k.val)
      = ((∑ n ∈ Finset.range 1024, Real.exp (ν - dr (1024 * j + n)) * wr (1024 * j + n) : ℝ) : EReal) := by
  rw [← Fin.sum_univ_eq_sum_range (fun n => Real.exp (ν - dr (1024 * j + n)) * wr (1024 * j + n)) 1024,
    Cert.Lib.EdgeSum.coe_sum]
  refine Finset.sum_congr rfl fun k _ => ?_
  rw [hd k, hw k, ← EReal.coe_sub, Ideal.exp_coe, ← EReal.coe_mul]

/-- Over the reals: the old sum rescaled from the minimum `μ` to `ν`, plus the next 1024 terms at `ν`, is the sum
    of all terms at `ν`. -/
theorem rescale_real (dr wr : ℕ → ℝ) (N : ℕ) (μ ν : ℝ) :
    Real.exp (ν - μ) * (∑ n ∈ Finset.range N, Real.exp (μ - dr n) * wr n)
      + ∑ n ∈ Finset.range 1024, Real.exp (ν - dr (N + n)) * wr (N + n)
      = ∑ n ∈ Finset.range (N + 1024), Real.exp (ν - dr n) * wr n := by
  rw [Finset.sum_range_add, Finset.mul_sum]
  congr 1
  refine Finset.sum_congr rfl fun n _ => ?_
  rw [← mul_assoc, ← Real.exp_add]
  congr 2
  ring

/-- The invariant of the two recurrences after `J + 1` tiles of real scores and weights: the minimum is a real `μ`
    and the accumulator is the real sum of `exp (μ - d n) * w n` over every index seen. -/
theorem run_closed (d w : ℕ → EReal) (dr wr : ℕ → ℝ) (J : ℕ) :
    (∀ n, n < 1024 * (J + 1) → d n = (dr n : EReal)) →
    (∀ n, n < 1024 * (J + 1) → w n = (wr n : EReal)) →
    ∃ μ : ℝ, runMin d (J + 1) = (μ : EReal) ∧
      runAcc d w (J + 1)
        = ((∑ n ∈ Finset.range (1024 * (J + 1)), Real.exp (μ - dr n) * wr n : ℝ) : EReal) := by
  induction J with
  | zero =>
    intro hd hw
    have hdk : ∀ k : Fin 1024, d (1024 * 0 + k.val) = (dr (1024 * 0 + k.val) : EReal) :=
      fun k => hd _ (by have := k.isLt; omega)
    have hwk : ∀ k : Fin 1024, w (1024 * 0 + k.val) = (wr (1024 * 0 + k.val) : EReal) :=
      fun k => hw _ (by have := k.isLt; omega)
    obtain ⟨t, ht⟩ := tileInf_real (fun k : Fin 1024 => d (1024 * 0 + k.val)) (fun k => dr (1024 * 0 + k.val)) hdk
    have hmin : runMin d (0 + 1) = (t : EReal) := by
      rw [runMin_succ, ht, show runMin d 0 = ⊤ from rfl, min_eq_right le_top]
    refine ⟨t, hmin, ?_⟩
    rw [runAcc_succ, show runAcc d w 0 = 0 from rfl, mul_zero, zero_add, hmin, tile_sum d w dr wr 0 t hdk hwk]
    simp only [Nat.mul_zero, Nat.zero_add, Nat.mul_one]
  | succ J ih =>
    intro hd hw
    obtain ⟨μ, hμ, hS⟩ := ih (fun n hn => hd n (by omega)) (fun n hn => hw n (by omega))
    have hdk : ∀ k : Fin 1024, d (1024 * (J + 1) + k.val) = (dr (1024 * (J + 1) + k.val) : EReal) :=
      fun k => hd _ (by have := k.isLt; omega)
    have hwk : ∀ k : Fin 1024, w (1024 * (J + 1) + k.val) = (wr (1024 * (J + 1) + k.val) : EReal) :=
      fun k => hw _ (by have := k.isLt; omega)
    obtain ⟨t, ht⟩ := tileInf_real (fun k : Fin 1024 => d (1024 * (J + 1) + k.val))
      (fun k => dr (1024 * (J + 1) + k.val)) hdk
    have hmin : runMin d (J + 1 + 1) = ((min μ t : ℝ) : EReal) := by
      rw [runMin_succ, ht, hμ, coe_min_real]
    refine ⟨min μ t, hmin, ?_⟩
    rw [runAcc_succ, hmin, hμ, hS, tile_sum d w dr wr (J + 1) (min μ t) hdk hwk, ← EReal.coe_sub, Ideal.exp_coe,
      ← EReal.coe_mul, ← EReal.coe_add, rescale_real, show 1024 * (J + 1) + 1024 = 1024 * (J + 1 + 1) from by ring]

end Online

/-- After at least one tile of real scores the running minimum is real. -/
theorem runMin_real (d : ℕ → EReal) (dr : ℕ → ℝ) (J : ℕ)
    (hd : ∀ n, n < 1024 * (J + 1) → d n = (dr n : EReal)) :
    ∃ μ : ℝ, runMin d (J + 1) = (μ : EReal) := by
  obtain ⟨μ, hμ, _⟩ := Online.run_closed d (fun _ => 0) dr (fun _ => 0) J hd (fun _ _ => EReal.coe_zero.symm)
  exact ⟨μ, hμ⟩

/-- The accumulator after `J + 1` tiles of real scores and weights, given the real value `μ` of the running minimum. -/
theorem runAcc_closed (d w : ℕ → EReal) (dr wr : ℕ → ℝ) (J : ℕ)
    (hd : ∀ n, n < 1024 * (J + 1) → d n = (dr n : EReal))
    (hw : ∀ n, n < 1024 * (J + 1) → w n = (wr n : EReal))
    (μ : ℝ) (hμ : runMin d (J + 1) = (μ : EReal)) :
    runAcc d w (J + 1) = ((∑ n ∈ Finset.range (1024 * (J + 1)), Real.exp (μ - dr n) * wr n : ℝ) : EReal) := by
  obtain ⟨μ0, hμ0, hS⟩ := Online.run_closed d w dr wr J hd hw
  have hEq : μ0 = μ := EReal.coe_injective (hμ0.symm.trans hμ)
  rw [← hEq]
  exact hS

end Cert.Softmin

end
-- ==== Proof.Dist.lean ====
/- The kernel's scaled distance against the reference's score, entry by entry, when the inputs are real:
   `sqrt (max (s / 4) 0) = sqrt (max s 0) / 2`, where the kernel's `s / 4` is `(-x/2)·a + |a|²/4 + |x|²/4` and the
   reference's `s` is `-2 x·a + |a|² + |x|²`; so the kernel's distance is minus the reference's score. On the padded
   rows the kernel's distance is some real number. -/
import proofs.«421776_j37220186587420_3_alg».proof.Proof.Spec
import proofs.«421776_j37220186587420_3_alg».proof.Proof.Lits
import proofs.«421776_j37220186587420_3_alg».proof.Proof.LibEdgeSum

noncomputable section

open scoped BigOperators

namespace Cert.Softmin

open Idealize.ShloMosaic

/-! ## Auxiliary facts on the reals and their coercions -/

/-- A sum of products of coerced reals is the coercion of the real sum of products. -/
theorem sum_coe_mul_coe (f g : Fin 128 → ℝ) :
    ∑ d : Fin 128, (f d : EReal) * (g d : EReal) = ((∑ d : Fin 128, f d * g d : ℝ) : EReal) := by
  rw [Cert.Lib.EdgeSum.coe_sum]
  exact Finset.sum_congr rfl fun d _ => (EReal.coe_mul _ _).symm

/-- The maximum of a coerced real with zero is the coercion of the real maximum. -/
theorem max_coe_zero (s : ℝ) : max (s : EReal) 0 = ((max s 0 : ℝ) : EReal) := by
  rw [← EReal.coe_zero]
  exact (EReal.coe_strictMono.monotone.map_max).symm

/-- The square root of the clamped coercion of a real is the coercion of the real square root of the clamp. -/
theorem sqrt_max_coe (s : ℝ) : Ideal.sqrt (max (s : EReal) 0) = ((Real.sqrt (max s 0) : ℝ) : EReal) := by
  rw [max_coe_zero, Ideal.sqrt_coe, if_neg (not_lt.mpr (le_max_right _ _))]

/-- Over the reals: clamping and taking the root commute with the division by four, up to the factor two. -/
theorem sqrt_max_quarter (s : ℝ) : Real.sqrt (max (s / 4) 0) = Real.sqrt (max s 0) / 2 := by
  have h4 : Real.sqrt 4 = 2 := by
    rw [Real.sqrt_eq_iff_mul_self_eq (by norm_num) (by norm_num)]; norm_num
  have hm : max (s / 4) 0 = max s 0 / 4 := by
    rw [← max_div_div_right (by norm_num : (0 : ℝ) ≤ 4), zero_div]
  rw [hm, Real.sqrt_div (le_max_right _ _), h4]

/-- Over the reals: the kernel's folded form of the squared distance is a quarter of the reference's. -/
theorem quarter_form (x a : Fin 128 → ℝ) :
    (∑ d : Fin 128, x d * (-(1 / 2)) * a d) + (∑ d : Fin 128, a d * a d) * (1 / 4) + (∑ d : Fin 128, x d * x d) * (1 / 4)
      = ((-2) * (∑ d : Fin 128, x d * a d) + (∑ d : Fin 128, a d * a d) + (∑ d : Fin 128, x d * x d)) / 4 := by
  have h : (∑ d : Fin 128, x d * (-(1 / 2)) * a d) = (-(1 / 2)) * ∑ d : Fin 128, x d * a d := by
    rw [Finset.mul_sum]
    exact Finset.sum_congr rfl fun d _ => by ring
  rw [h]; ring

variable (X : Fin 2048 → Fin 128 → EReal) (A : Fin 100000 → Fin 128 → EReal)

/-! ## The reference's score and the kernel's distance at real inputs -/

/-- The reference's squared distance at real entries is the coercion of the real quadratic form. -/
theorem refSq_coe (xr : Fin 2048 → Fin 128 → ℝ) (ar : Fin 100000 → Fin 128 → ℝ)
    (hxr : ∀ b d, X b d = (xr b d : EReal)) (har : ∀ n d, A n d = (ar n d : EReal))
    (b : Fin 2048) (n : Fin 100000) :
    refSq X A b n = (((-2) * (∑ d : Fin 128, xr b d * ar n d) + (∑ d : Fin 128, ar n d * ar n d)
      + (∑ d : Fin 128, xr b d * xr b d) : ℝ) : EReal) := by
  unfold refSq
  simp only [hxr, har, lit, Cert.Lits.neg_two, sum_coe_mul_coe]
  rw [← EReal.coe_mul, ← EReal.coe_add, ← EReal.coe_add]

/-- The reference's score at real entries: minus half the root of the clamped quadratic form. -/
theorem refScore_coe (xr : Fin 2048 → Fin 128 → ℝ) (ar : Fin 100000 → Fin 128 → ℝ)
    (hxr : ∀ b d, X b d = (xr b d : EReal)) (har : ∀ n d, A n d = (ar n d : EReal))
    (b : Fin 2048) (n : Fin 100000) :
    refScore X A b n = ((-(Real.sqrt (max ((-2) * (∑ d : Fin 128, xr b d * ar n d)
      + (∑ d : Fin 128, ar n d * ar n d) + (∑ d : Fin 128, xr b d * xr b d)) 0) / 2) : ℝ) : EReal) := by
  unfold refScore
  rw [refSq_coe X A xr ar hxr har, sqrt_max_coe, lit, Cert.Lits.two,
    Ideal.div_coe (by norm_num : (2 : ℝ) ≠ 0), ← EReal.coe_neg, ← EReal.coe_mul]
  congr 1
  ring

/-- The kernel's scaled distance to a true row at real entries: half the root of the clamped quadratic form. -/
theorem kd_coe (xr : Fin 2048 → Fin 128 → ℝ) (ar : Fin 100000 → Fin 128 → ℝ)
    (hxr : ∀ b d, X b d = (xr b d : EReal)) (har : ∀ n d, A n d = (ar n d : EReal))
    (b : Fin 2048) (n : ℕ) (h : n < 100000) :
    kd X A b n = ((Real.sqrt (max ((-2) * (∑ d : Fin 128, xr b d * ar ⟨n, h⟩ d)
      + (∑ d : Fin 128, ar ⟨n, h⟩ d * ar ⟨n, h⟩ d) + (∑ d : Fin 128, xr b d * xr b d)) 0) / 2 : ℝ) : EReal) := by
  unfold kd kxs knx Ap nAp
  simp only [dif_pos h, hxr, har, lit, Cert.Lits.neg_half, Cert.Lits.quarter]
  simp only [← EReal.coe_mul, ← Cert.Lib.EdgeSum.coe_sum, ← EReal.coe_add]
  rw [quarter_form, sqrt_max_coe, sqrt_max_quarter]

/-- With real inputs the reference's score is a real number. -/
theorem refScore_real (hX : ∀ b d, ∃ r : ℝ, X b d = (r : EReal)) (hA : ∀ n d, ∃ r : ℝ, A n d = (r : EReal))
    (b : Fin 2048) (n : Fin 100000) : ∃ z : ℝ, refScore X A b n = (z : EReal) := by
  choose xr hxr using hX
  choose ar har using hA
  exact ⟨_, refScore_coe X A xr ar hxr har b n⟩

/-- With real inputs the kernel's scaled distance to a true address row is minus the reference's score. -/
theorem kd_eq_neg_refScore (hX : ∀ b d, ∃ r : ℝ, X b d = (r : EReal)) (hA : ∀ n d, ∃ r : ℝ, A n d = (r : EReal))
    (b : Fin 2048) (n : ℕ) (h : n < 100000) : kd X A b n = -(refScore X A b ⟨n, h⟩) := by
  choose xr hxr using hX
  choose ar har using hA
  rw [kd_coe X A xr ar hxr har b n h, refScore_coe X A xr ar hxr har b ⟨n, h⟩, ← EReal.coe_neg, neg_neg]

/-- With real inputs the kernel's scaled distance is a real number at every row, padded ones included. -/
theorem kd_real (hX : ∀ b d, ∃ r : ℝ, X b d = (r : EReal)) (hA : ∀ n d, ∃ r : ℝ, A n d = (r : EReal))
    (b : Fin 2048) (n : ℕ) : ∃ z : ℝ, kd X A b n = (z : EReal) := by
  by_cases h : n < 100000
  · choose xr hxr using hX
    choose ar har using hA
    exact ⟨_, kd_coe X A xr ar hxr har b n h⟩
  · choose xr hxr using hX
    refine ⟨Real.sqrt (max (999999995904 * (1 / 4) + (∑ d : Fin 128, xr b d * xr b d) * (1 / 4)) 0), ?_⟩
    unfold kd kxs knx Ap nAp
    simp only [dif_neg h, hxr, lit, Cert.Lits.big, Cert.Lits.quarter, mul_zero, Finset.sum_const_zero, zero_add,
      sum_coe_mul_coe]
    rw [← EReal.coe_mul, ← EReal.coe_mul, ← EReal.coe_add, sqrt_max_coe]

end Cert.Softmin

end
-- ==== Proof.Softmin.lean ====
/- The kernel's quotient of accumulators is the reference's softmax-weighted sum, when the inputs are real.
   Both are `(∑ n, exp (-dist n / 2) * M n c) / (∑ n, exp (-dist n / 2))` over the 100000 true rows: in the kernel
   the common factor `exp μ` of the running minimum cancels in the quotient and the padded rows carry weight zero
   in both columns; in the reference the common factor `exp (-max)` cancels against the normalising sum. -/
import proofs.«421776_j37220186587420_3_alg».proof.Proof.Spec
import proofs.«421776_j37220186587420_3_alg».proof.Proof.Online
import proofs.«421776_j37220186587420_3_alg».proof.Proof.Dist
import proofs.«421776_j37220186587420_3_alg».proof.Proof.LibEdgeSum

noncomputable section

open scoped BigOperators

namespace Cert.Softmin

open Idealize.ShloMosaic

/-! ## Two identities on the reals -/

/-- A sum over `N + K` indices whose weights vanish from `N` on, with scores `d n = -z n` on the first `N`:
    the common factor `exp μ` comes out and only the first `N` terms remain. -/
theorem sum_pad (N K : ℕ) (μ : ℝ) (dr : ℕ → ℝ) (zr m : Fin N → ℝ)
    (hdz : ∀ (n : ℕ) (h : n < N), dr n = -zr ⟨n, h⟩) :
    ∑ n ∈ Finset.range (N + K), Real.exp (μ - dr n) * (if h : n < N then m ⟨n, h⟩ else 0)
      = Real.exp μ * ∑ n : Fin N, Real.exp (zr n) * m n := by
  rw [Finset.sum_range_add]
  have h2 : ∑ x ∈ Finset.range K,
      Real.exp (μ - dr (N + x)) * (if h : N + x < N then m ⟨N + x, h⟩ else 0) = 0 := by
    refine Finset.sum_eq_zero fun x _ => ?_
    rw [dif_neg (by omega), mul_zero]
  rw [h2, add_zero, Finset.sum_range, Finset.mul_sum]
  refine Finset.sum_congr rfl fun n _ => ?_
  rw [dif_pos n.isLt, hdz n n.isLt, sub_neg_eq_add, Real.exp_add, mul_assoc]

/-- The quotient of two such sums: the factor `exp μ` cancels. -/
theorem quot_pad (N : ℕ) [Nonempty (Fin N)] (μ : ℝ) (zr m : Fin N → ℝ) :
    (Real.exp μ * ∑ n : Fin N, Real.exp (zr n) * m n) * (1 / (Real.exp μ * ∑ n : Fin N, Real.exp (zr n) * 1))
      = (∑ n, Real.exp (zr n) * m n) / (∑ n, Real.exp (zr n)) := by
  simp only [mul_one]
  rw [mul_one_div, mul_div_mul_left _ _ (Real.exp_ne_zero μ)]

/-- The softmax weights shifted by any `ζ`, against `m`: the factor `exp (-ζ)` cancels against the normaliser. -/
theorem ref_real (N : ℕ) [Nonempty (Fin N)] (ζ : ℝ) (zr m : Fin N → ℝ) :
    ∑ n, Real.exp (zr n - ζ) * (1 / ∑ k, Real.exp (zr k - ζ)) * m n
      = (∑ n, Real.exp (zr n) * m n) / (∑ n, Real.exp (zr n)) := by
  have hT : (∑ n, Real.exp (zr n)) ≠ 0 :=
    (Finset.sum_pos (fun i _ => Real.exp_pos (zr i)) Finset.univ_nonempty).ne'
  have hE : Real.exp (-ζ) ≠ 0 := Real.exp_ne_zero _
  have hS : ∑ k, Real.exp (zr k - ζ) = (∑ k, Real.exp (zr k)) * Real.exp (-ζ) := by
    rw [Finset.sum_mul]
    refine Finset.sum_congr rfl fun k _ => ?_
    rw [sub_eq_add_neg, Real.exp_add]
  rw [hS, Finset.sum_div]
  refine Finset.sum_congr rfl fun n _ => ?_
  rw [sub_eq_add_neg, Real.exp_add]
  field_simp

/-! ## The two sides as one real quotient -/

/-- The kernel's quotient of accumulators: the padded rows drop and the factor `exp μ` cancels. -/
theorem kOut_eq_avg (X : Fin 2048 → Fin 128 → EReal) (A : Fin 100000 → Fin 128 → EReal) (Mv : Fin 100000 → Fin 100 → EReal)
    (hX : ∀ b d, ∃ r : ℝ, X b d = (r : EReal)) (hA : ∀ n d, ∃ r : ℝ, A n d = (r : EReal))
    (b : Fin 2048) (c : Fin 100) (zr mr : Fin 100000 → ℝ)
    (hz : ∀ n, refScore X A b n = (zr n : EReal)) (hm : ∀ n, Mv n c = (mr n : EReal)) :
    kOut X A Mv b c = (((∑ n, Real.exp (zr n) * mr n) / (∑ n, Real.exp (zr n)) : ℝ) : EReal) := by
  haveI : Nonempty (Fin 100000) := ⟨⟨0, by norm_num⟩⟩
  choose dr hdr using kd_real X A hX hA b
  have hdz : ∀ (n : ℕ) (h : n < 100000), dr n = -zr ⟨n, h⟩ := by
    intro n h
    have e := kd_eq_neg_refScore X A hX hA b n h
    rw [hdr n, hz ⟨n, h⟩, ← EReal.coe_neg] at e
    exact EReal.coe_eq_coe_iff.mp e
  obtain ⟨μ, hμ⟩ := runMin_real (kd X A b) dr 97 (fun n _ => hdr n)
  have hwc : ∀ n, n < 1024 * (97 + 1) →
      (fun n => Mp Mv n ⟨c.val, by omega⟩) n
        = (((fun n => if h : n < 100000 then mr ⟨n, h⟩ else 0 : ℕ → ℝ) n : ℝ) : EReal) := by
    intro n _
    show Mp Mv n ⟨c.val, _⟩ = (((if h : n < 100000 then mr ⟨n, h⟩ else 0 : ℝ)) : EReal)
    unfold Mp
    by_cases h : n < 100000
    · rw [dif_pos h, dif_pos h, dif_pos (show (⟨c.val, _⟩ : Fin 128).val < 100 from c.isLt)]
      exact hm ⟨n, h⟩
    · rw [dif_neg h, dif_neg h, EReal.coe_zero]
  have hw1 : ∀ n, n < 1024 * (97 + 1) →
      (fun n => Mp Mv n ⟨100, by omega⟩) n
        = (((fun n => if h : n < 100000 then (fun _ : Fin 100000 => (1 : ℝ)) ⟨n, h⟩ else 0 : ℕ → ℝ) n : ℝ) : EReal) := by
    intro n _
    show Mp Mv n ⟨100, _⟩ = (((if h : n < 100000 then (1 : ℝ) else 0 : ℝ)) : EReal)
    unfold Mp
    by_cases h : n < 100000
    · rw [dif_pos h, dif_pos h, dif_neg (show ¬ (⟨100, _⟩ : Fin 128).val < 100 from lt_irrefl 100),
        if_pos (show (⟨100, _⟩ : Fin 128).val = 100 from rfl), EReal.coe_one]
    · rw [dif_neg h, dif_neg h, EReal.coe_zero]
  have hC := runAcc_closed (kd X A b) (fun n => Mp Mv n ⟨c.val, by omega⟩) dr
    (fun n => if h : n < 100000 then mr ⟨n, h⟩ else 0) 97 (fun n _ => hdr n) hwc μ hμ
  have h1 := runAcc_closed (kd X A b) (fun n => Mp Mv n ⟨100, by omega⟩) dr
    (fun n => if h : n < 100000 then (fun _ : Fin 100000 => (1 : ℝ)) ⟨n, h⟩ else 0) 97 (fun n _ => hdr n) hw1 μ hμ
  have e352 : 1024 * (97 + 1) = 100000 + 352 := by norm_num
  rw [e352, sum_pad 100000 352 μ dr zr mr hdz] at hC
  rw [e352, sum_pad 100000 352 μ dr zr (fun _ => 1) hdz] at h1
  have hD : Real.exp μ * ∑ n : Fin 100000, Real.exp (zr n) * 1 ≠ 0 := by
    simp only [mul_one]
    exact (mul_pos (Real.exp_pos μ)
      (Finset.sum_pos (fun i _ => Real.exp_pos (zr i)) Finset.univ_nonempty)).ne'
  unfold kOut
  rw [show runAcc (kd X A b) (fun n => Mp Mv n ⟨c.val, by omega⟩) 98 = _ from hC,
    show runAcc (kd X A b) (fun n => Mp Mv n ⟨100, by omega⟩) 98 = _ from h1,
    Ideal.div_coe hD, ← EReal.coe_mul, quot_pad]

/-- The reference's softmax-weighted sum: the maximum is one of the real scores, every weight and the normaliser are
    real, the normaliser is positive, and the factor `exp (-max)` cancels. -/
theorem refOut_eq_avg (X : Fin 2048 → Fin 128 → EReal) (A : Fin 100000 → Fin 128 → EReal) (Mv : Fin 100000 → Fin 100 → EReal)
    (b : Fin 2048) (c : Fin 100) (zr mr : Fin 100000 → ℝ)
    (hz : ∀ n, refScore X A b n = (zr n : EReal)) (hm : ∀ n, Mv n c = (mr n : EReal)) :
    refOut X A Mv b c = (((∑ n, Real.exp (zr n) * mr n) / (∑ n, Real.exp (zr n)) : ℝ) : EReal) := by
  haveI : Nonempty (Fin 100000) := ⟨⟨0, by norm_num⟩⟩
  obtain ⟨i₀, -, hi₀⟩ := Finset.exists_mem_eq_sup (Finset.univ : Finset (Fin 100000)) Finset.univ_nonempty
    (refScore X A b)
  have hmax : refMax X A b = ((zr i₀ : ℝ) : EReal) := by
    unfold refMax
    rw [hi₀, hz]
  have hW : ∀ n, refW X A b n = ((Real.exp (zr n - zr i₀) : ℝ) : EReal) := by
    intro n
    unfold refW
    rw [hz n, hmax, ← EReal.coe_sub, Ideal.exp_coe]
  have hS : ∑ k, refW X A b k = ((∑ k, Real.exp (zr k - zr i₀) : ℝ) : EReal) := by
    rw [Cert.Lib.EdgeSum.coe_sum]
    exact Finset.sum_congr rfl fun k _ => hW k
  have hSpos : (∑ k, Real.exp (zr k - zr i₀)) ≠ 0 :=
    (Finset.sum_pos (fun i _ => Real.exp_pos (zr i - zr i₀)) Finset.univ_nonempty).ne'
  unfold refOut
  rw [← ref_real 100000 (zr i₀) zr mr, Cert.Lib.EdgeSum.coe_sum]
  refine Finset.sum_congr rfl fun n _ => ?_
  rw [hS, hW n, hm n, Ideal.div_coe hSpos, ← EReal.coe_mul, ← EReal.coe_mul]

/-- With real inputs the kernel's result equals the reference's, entry by entry. -/
theorem kOut_eq_refOut (X : Fin 2048 → Fin 128 → EReal) (A : Fin 100000 → Fin 128 → EReal) (Mv : Fin 100000 → Fin 100 → EReal)
    (hX : ∀ b d, ∃ r : ℝ, X b d = (r : EReal)) (hA : ∀ n d, ∃ r : ℝ, A n d = (r : EReal))
    (hM : ∀ n c, ∃ r : ℝ, Mv n c = (r : EReal)) (b : Fin 2048) (c : Fin 100) :
    kOut X A Mv b c = refOut X A Mv b c := by
  choose zr hz using refScore_real X A hX hA b
  choose mr hm using fun n => hM n c
  rw [kOut_eq_avg X A Mv hX hA b c zr mr hz hm, refOut_eq_avg X A Mv b c zr mr hz hm]

end Cert.Softmin

end
-- ==== Proof.LibFoldMax.lean ====
/-
  A left fold of `max` over a list, on the extended reals, by its universal property: the fold is bounded
  by `z` exactly when its starting value and every term are. With it a host max-reduction (a reduce or a
  reduce-window, which fold `max` from the initial value over a list of positions) is compared with any
  other description of the same maximum by `eq_of_forall_ge_iff`, with no case split on infinities.
-/
import Idealize.ShloMosaic.PureOps.Ideal

namespace Cert.LibFoldMax

/-- A left fold of `max` from `v` over the terms `g n`, `n` in `L`, is at most `z` exactly when `v` and
    every `g n` are. -/
theorem foldl_max_le_iff {ι : Type} (g : ι → EReal) (z : EReal) :
    ∀ (L : List ι) (v : EReal), L.foldl (fun r n => max r (g n)) v ≤ z ↔ v ≤ z ∧ ∀ n ∈ L, g n ≤ z
  | [], v => by simp
  | a :: L, v => by
    rw [List.foldl_cons, foldl_max_le_iff g z L, max_le_iff]
    simp only [List.mem_cons, forall_eq_or_imp, and_assoc]

end Cert.LibFoldMax
-- ==== Proof.RefRead.lean ====
/- The reference read at an index: its result at `(b, c)` is the softmax, along the addresses, of minus half the
   clamped distances of query `b`, against column `c` of the value table — each host operation read at an index,
   the row maximum as the supremum of the row's scores. -/
import proofs.«421776_j37220186587420_3_alg».proof.Proof.Gen.ReferenceIdeal.Run
import proofs.«421776_j37220186587420_3_alg».proof.Proof.Gen.ReferenceIdeal.Read
import proofs.«421776_j37220186587420_3_alg».proof.Proof.Spec
import proofs.«421776_j37220186587420_3_alg».proof.Proof.Lits
import proofs.«421776_j37220186587420_3_alg».proof.Proof.LibFoldMax
import Idealize.ShloMosaic.Lib.ValueIdx
import Idealize.ShloMosaic.PureOps.Ideal.Laws
import Mathlib.Data.Finset.Fold
import Mathlib.Data.Finset.Lattice.Fold

noncomputable section

open scoped BigOperators

open Idealize.ShloMosaic Idealize.ShloMosaic.ValueIdx

namespace Cert.ReferenceIdeal.RefValue

open Cert.ReferenceIdeal Cert.Softmin

section Stages

open Cert.ReferenceIdeal.Read Cert.ReferenceIdeal.Gen

variable (x0 : (⟨S2048x128, .f32⟩ : BufTy).Contents (Elt Ideal)) (x1 : (⟨S100000x128, .f32⟩ : BufTy).Contents (Elt Ideal))

/-- The three argument arrays as functions of their coordinates. -/
local notation "X" => (fun (b : Fin 2048) (d : Fin 128) => x0 (ix2 b d))
local notation "A" => (fun (n : Fin 100000) (d : Fin 128) => x1 (ix2 n d))

/-- The squared-distance stage at `(b, n)` is the expanded quadratic form. -/
theorem sq_apply (b : Fin 2048) (n : Fin 100000) :
    val_main_v13 (F := Ideal) x0 x1 (ix2 b n) = refSq X A b n := by
  have e1 : ∀ k : Fin 128, lidx_main_v1 (ix2 b n) k = ix2 b k := fun k =>
    funext fun a => Fin.ext (by match a with | ⟨0, _⟩ => rfl | ⟨1, _⟩ => rfl)
  have e2 : ∀ k : Fin 128, idx_main_v0 (ridx_main_v1 (ix2 b n) k) = ix2 n k := fun k =>
    funext fun a => Fin.ext (by match a with | ⟨0, _⟩ => rfl | ⟨1, _⟩ => rfl)
  have e3 : ∀ k : Fin 128, idx_main_v5 (idx_main_v6 (idx_main_v7 (ix2 b n))) k = ix2 n k := fun k =>
    funext fun a => Fin.ext (by match a with | ⟨0, _⟩ => rfl | ⟨1, _⟩ => rfl)
  have e4 : ∀ k : Fin 128, idx_main_v10 (idx_main_v11 (idx_main_v12 (ix2 b n))) k = ix2 b k := fun k =>
    funext fun a => Fin.ext (by match a with | ⟨0, _⟩ => rfl | ⟨1, _⟩ => rfl)
  rw [val_main_v13_apply, val_main_v8_apply, val_main_v3_apply, val_main_v2_apply, val_main_cst_apply,
    val_main_v1_apply, val_main_v7_apply, val_main_v6_apply, val_main_v5_apply, val_main_cst_0_apply,
    val_main_v12_apply, val_main_v11_apply, val_main_v10_apply, val_main_cst_1_apply]
  simp only [val_main_v0_apply, val_main_v4_apply, val_main_v9_apply, e1, e2, e3, e4,
    Ideal.addf_def, Ideal.mulf_def, Ideal.ofBits_def, Ideal.ofBits_zero_f32, zero_add]
  rfl

/-- The score stage at `(b, n)`: minus the clamped distance, over the temperature. -/
theorem score_apply (b : Fin 2048) (n : Fin 100000) :
    val_main_v19 (F := Ideal) x0 x1 (ix2 b n) = refScore X A b n := by
  rw [val_main_v19_apply, val_main_v17_apply, val_main_v16_apply, val_main_v15_apply, sq_apply,
    val_main_v14_apply, val_main_cst_2_apply, val_main_v18_apply, val_main_cst_3_apply]
  simp only [Ideal.hostDivf_def, Ideal.hostNegf_def, Ideal.negf_def, Ideal.hostUnary_sqrt_def, Ideal.maximumf_def,
    Ideal.ofBits_def, Ideal.ofBits_zero_f32]
  rfl

/-- The shape fact the row maximum's fold is read through. -/
theorem reduces_row : S2048x100000.Reduces [1] S2048 := by decide

/-- Row `b` with the address coordinate `k` put back is `(b, k)`. -/
theorem lift_row (b : Fin 2048) (k : Fin (S2048x100000.size 1)) :
    reduces_row.lift (ix1 b) k = ix2 b (⟨k.val, k.isLt⟩ : Fin 100000) := by
  funext c; apply Fin.ext
  fin_cases c <;> rfl

/-- A fold of `max` from the bottom element over all of a finite type is the supremum. -/
theorem fold_max_bot_eq_sup {ι : Type} [Fintype ι] (g : ι → EReal) :
    (Finset.univ : Finset ι).fold max ⊥ g = Finset.univ.sup g :=
  eq_of_forall_ge_iff fun z => by
    rw [Finset.fold_max_le, Finset.sup_le_iff]
    exact ⟨fun h => h.2, fun h => ⟨bot_le, h⟩⟩

/-- The row-maximum stage at `b` is the supremum of the row's scores. -/
theorem max_apply (b : Fin 2048) :
    val_main_v22 (F := Ideal) x0 x1 (ix1 b) = refMax X A b := by
  rw [val_main_v22_apply, val_main_v21_apply, val_main_cst_5_apply]
  unfold val_main_v20
  rw [Host.reduce_eq_fold_single FloatOps.maximumf _ _ reducesTo_S2048x100000_S2048_d1 reduces_row h_S_, val_main_cst_4_apply]
  simp only [Ideal.maximumf_def, Ideal.ofBits_def, Cert.Lits.neg_inf]
  rw [max_bot_left]
  exact (Finset.fold_congr (fun k _ => by
      show val_main_v19 (F := Ideal) x0 x1 (reduces_row.lift (ix1 b) k) = refScore X A b ⟨k.val, k.isLt⟩
      rw [lift_row, score_apply])).trans (fold_max_bot_eq_sup (refScore X A b))

/-- The weight stage at `(b, n)`: the exponential of the score shifted by the row maximum. -/
theorem weight_apply (b : Fin 2048) (n : Fin 100000) :
    val_main_v26 (F := Ideal) x0 x1 (ix2 b n) = refW X A b n := by
  have e : idx_main_v23 (idx_main_v24 (ix2 b n)) = ix1 b :=
    funext fun a => Fin.ext (by match a with | ⟨0, _⟩ => rfl)
  rw [val_main_v26_apply, val_main_v25_apply, score_apply, val_main_v24_apply, val_main_v23_apply, e, max_apply]
  simp only [Ideal.hostUnary_exp_def, Ideal.subf_def]
  rfl

/-- The normaliser stage at `b`: the sum of the row's weights. -/
theorem norm_apply (b : Fin 2048) :
    val_main_v27 (F := Ideal) x0 x1 (ix1 b) = ∑ k : Fin 100000, refW X A b k := by
  have e : ∀ k : Fin 100000, idx_main_v27 (ix1 b) k = ix2 b k := fun k =>
    funext fun a => Fin.ext (by match a with | ⟨0, _⟩ => rfl | ⟨1, _⟩ => rfl)
  rw [val_main_v27_apply, val_main_cst_6_apply]
  simp only [e, weight_apply, Ideal.ofBits_def, Ideal.ofBits_zero_f32, zero_add]

/-- The softmax stage at `(b, n)`: the weight over the row's normaliser. -/
theorem soft_apply (b : Fin 2048) (n : Fin 100000) :
    val_main_v30 (F := Ideal) x0 x1 (ix2 b n) = Ideal.div (refW X A b n) (∑ k : Fin 100000, refW X A b k) := by
  have e : idx_main_v28 (idx_main_v29 (ix2 b n)) = ix1 b :=
    funext fun a => Fin.ext (by match a with | ⟨0, _⟩ => rfl)
  rw [val_main_v30_apply, weight_apply, val_main_v29_apply, val_main_v28_apply, e, norm_apply]
  rfl

end Stages

/-- The reference's last stage at an index is the specification's reference value of the three argument arrays. -/
theorem ref_apply (x0 : (⟨S2048x128, .f32⟩ : BufTy).Contents (Elt Ideal)) (x1 : (⟨S100000x128, .f32⟩ : BufTy).Contents (Elt Ideal))
    (x2 : (⟨S100000x100, .f32⟩ : BufTy).Contents (Elt Ideal)) (i : S2048x100.Idx) :
    Cert.ReferenceIdeal.Read.val_main_v31 (F := Ideal) x0 x1 x2 i
      = refOut (fun b d => x0 (ix2 b d)) (fun n d => x1 (ix2 n d)) (fun n k => x2 (ix2 n k))
          ⟨(i 0).val, idx2_lt0 i⟩ ⟨(i 1).val, idx2_lt1 i⟩ := by
  obtain ⟨b, c, rfl⟩ : ∃ (b : Fin 2048) (c : Fin 100), i = ix2 b c := ⟨i 0, i 1, eq_ix2 i⟩
  have el : ∀ k : Fin 100000, Read.lidx_main_v31 (ix2 b c) k = ix2 b k := fun k =>
    funext fun a => Fin.ext (by match a with | ⟨0, _⟩ => rfl | ⟨1, _⟩ => rfl)
  have er : ∀ k : Fin 100000, Read.ridx_main_v31 (ix2 b c) k = ix2 k c := fun k =>
    funext fun a => Fin.ext (by match a with | ⟨0, _⟩ => rfl | ⟨1, _⟩ => rfl)
  rw [Read.val_main_v31_apply]
  simp only [el, er, soft_apply]
  rfl

end Cert.ReferenceIdeal.RefValue

end
-- ==== Proof.Finite.lean ====
/- Under the precondition every entry of the three argument arrays is a real number: the precondition says that
   the absolute value of every entry is below +infinity, and an extended real whose absolute value is below
   +infinity is neither infinity. -/
import proofs.«421776_j37220186587420_3_alg».proof.Defs
import proofs.«421776_j37220186587420_3_alg».proof.Proof.Chain
import Idealize.ShloMosaic.Lib.ReduceAll
import Idealize.ShloMosaic.Lib.ValueIdx

noncomputable section

open Idealize.ShloMosaic Idealize.ShloMosaic.TcCoe Idealize.SL.Sem Idealize.ShloMosaic.ValueIdx

namespace Cert.KernelIdeal.Finite

open Cert.KernelIdeal Cert.KernelIdeal.Args

/-- The word 0x7F800000 read as a binary32 number is +infinity. -/
theorem inf_bits : Ideal.ofBits .f32 0x7F800000#32 = (⊤ : EReal) := by
  simp [Ideal.ofBits, Ideal.ieee]

/-- An extended real whose absolute value `max x (-x)` is strictly below +infinity is a real number:
    at either infinity the absolute value is +infinity itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- An array for which "every entry's absolute value is below +infinity" came out true holds real numbers:
    the conjunction over all entries being 1 gives the comparison at each entry, and the comparison at an
    entry excludes both infinities. -/
theorem real_of_all {s : Shape} {axes : List (Fin s.rank)} (x : FVec Ideal s .f32)
    (hb : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi (cmpf .olt (Host.absf x)
          (broadcastInDim s ![] hb (constant (F := Ideal) Cert.Pre_finite_inputs.S_ .f32 0x7F800000#32)))
        (constantI Cert.Pre_finite_inputs.S_ 1 1#1) h hu ix0 = 1#1) (i : s.Idx) :
    ∃ r : ℝ, x i = (r : EReal) := by
  have hi := Host.reduce_andi_all _ _ h hu ix0 e i
  apply real_of_abs_lt_top
  rw [← inf_bits]
  exact hi

/-- Under the precondition the queries, the address table and the value table hold real numbers. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev nD) :
    (∀ b d, ∃ r : ℝ, Xof m c b d = (r : EReal)) ∧ (∀ n d, ∃ r : ℝ, Aof m c n d = (r : EReal))
      ∧ (∀ n k, ∃ r : ℝ, Mof m c n k = (r : EReal)) := by
  have h0 := congrFun (h c) ix0
  dsimp only [Cert.Pre_finite_inputs.fn] at h0
  obtain ⟨h01, h2⟩ := IntOp.andi_eq_one.1 h0
  obtain ⟨h0', h1⟩ := IntOp.andi_eq_one.1 h01
  exact ⟨fun b d => real_of_all _ _ _ _ h0' (ix2 b d), fun n d => real_of_all _ _ _ _ h1 (ix2 n d),
    fun n k => real_of_all _ _ _ _ h2 (ix2 n k)⟩

end Cert.KernelIdeal.Finite

end
-- ==== Proof.lean ====
/- The proof of `Cert.Claim`: a softmin-weighted lookup. For each of 2048 query rows `x_b` the reference takes the
   distances `dist(b, n)` to 100000 address rows by the expanded quadratic form, the softmax along `n` of
   `-dist / 2`, and the weighted sum of the rows of a value table `M`. The kernel streams the addresses in 98 tiles of
   1024 (the table padded with 352 zero rows whose squared norm is a large constant), keeps per query a running
   minimum of `dist / 2` and an accumulator rescaled to that minimum, and carries the softmin denominator as a
   column of ones appended to `M`; after the launch the host divides the first 100 columns by that column.

   On the extended reals with real inputs both are `(∑ n, exp (-dist n / 2) M n c) / (∑ n, exp (-dist n / 2))`:
   the kernel's scales -1/2 and 1/4 are the reference's -2 and its division by 2 taken inside the square root; the
   running minimum only contributes a common factor `exp μ` to numerator and denominator; the padded rows have
   weight zero in every column; the reference's shift by the row maximum cancels against its normaliser. The law
   that joins the sides moves real factors across finite sums, which is where the finiteness of the inputs is used.

   The three frames are the generated ones (the reference's is its generated run with the result dropped), and the
   idealization rewrote nothing. -/
import proofs.«421776_j37220186587420_3_alg».proof.Defs
import proofs.«421776_j37220186587420_3_alg».proof.Proof.Gen.Kernel
import proofs.«421776_j37220186587420_3_alg».proof.Proof.Gen.Kernel.Frame
import proofs.«421776_j37220186587420_3_alg».proof.Proof.Gen.KernelIdeal
import proofs.«421776_j37220186587420_3_alg».proof.Proof.Gen.KernelIdeal.Frame
import proofs.«421776_j37220186587420_3_alg».proof.Proof.Gen.ReferenceIdeal
import proofs.«421776_j37220186587420_3_alg».proof.Proof.Gen.ReferenceIdeal.Run
import proofs.«421776_j37220186587420_3_alg».proof.Proof.Gen.ReferenceIdeal.Read
import proofs.«421776_j37220186587420_3_alg».proof.Proof.Gen.Pre_finite_inputs
import proofs.«421776_j37220186587420_3_alg».proof.Proof.Spec
import proofs.«421776_j37220186587420_3_alg».proof.Proof.Chain
import proofs.«421776_j37220186587420_3_alg».proof.Proof.Glue
import proofs.«421776_j37220186587420_3_alg».proof.Proof.Tail
import proofs.«421776_j37220186587420_3_alg».proof.Proof.Softmin
import proofs.«421776_j37220186587420_3_alg».proof.Proof.RefRead
import proofs.«421776_j37220186587420_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

open Cert.KernelIdeal.Online Cert.KernelIdeal.Args Cert.Softmin in
/-- The kernel's quotient at `(b, k)` is the specification's kernel value of the argument arrays: the accumulator
    after the last tile of `b`'s row block is the row's running accumulator after all 98 tiles. -/
theorem quot_eq (m : (ℓ : Loc Cert.KernelIdeal.nD Cert.KernelIdeal.τ Cert.KernelIdeal.sig) → Buf (Elt Ideal) ℓ)
    (c : Dev Cert.KernelIdeal.nD) (i : Cert.KernelIdeal.S2048x100.Idx) :
    Cert.KernelIdeal.Tail.quot m c i
      = kOut (Xof m c) (Aof m c) (Mof m c) ⟨(i 0).val, idx2_lt0 i⟩ ⟨(i 1).val, idx2_lt1 i⟩ := by
  unfold Cert.KernelIdeal.Tail.quot Cert.KernelIdeal.Tail.accAt kOut
  rw [(scr_spec m c (lastPos ⟨(i 0).val, idx2_lt0 i⟩) (lane ⟨(i 0).val, idx2_lt0 i⟩)).2.2.2 _,
    (scr_spec m c (lastPos ⟨(i 0).val, idx2_lt0 i⟩) (lane ⟨(i 0).val, idx2_lt0 i⟩)).2.2.2 _,
    rowIdx_lastPos, lastPos_mod]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.Args Cert.Softmin in
/-- Both programs run, from memories agreeing on the arguments, to the same result: the kernel's quotient of
    accumulators and the reference's softmax-weighted sum are one function of the (real) argument arrays. -/
theorem algebraic : Cert.algebraic_KernelIdeal_ReferenceIdeal := by
  intro m ρ m' ρ' hpre hagree
  refine ⟨fun c => Cert.KernelIdeal.Tail.quot m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2]
  funext i
  obtain ⟨hX, hA, hM⟩ := Cert.KernelIdeal.Finite.real_of_pre m hpre c
  rw [Cert.ReferenceIdeal.RefValue.ref_apply]
  show _ = Cert.KernelIdeal.Tail.quot m c i
  rw [quot_eq]
  exact (kOut_eq_refOut (Xof m c) (Aof m c) (Mof m c) hX hA hM _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
